-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x512 : Shape := ⟨4, ![8, 64, 64, 512]⟩
abbrev S512x1536 : Shape := ⟨2, ![512, 1536]⟩
abbrev S1536 : Shape := ⟨1, ![1536]⟩
abbrev S512x512 : Shape := ⟨2, ![512, 512]⟩
abbrev S512 : Shape := ⟨1, ![512]⟩
abbrev S1x1x1x512 : Shape := ⟨4, ![1, 1, 1, 512]⟩
abbrev S_ : Shape := ⟨0, ![]⟩

class Facts : Prop where
  bcast_S_S8x64x64x512 : S_.BroadcastsInDim S8x64x64x512 (![] : Fin 0 → Fin S8x64x64x512.rank)
  reducesTo_S8x64x64x512_S_d0_1_2_3 : S8x64x64x512.ReducesTo [0, 1, 2, 3] S_
  h_S_ : 0 < S_.numel
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x1x1x512 : S_.BroadcastsInDim S1x1x1x512 (![] : Fin 0 → Fin S1x1x1x512.rank)
  reducesTo_S1x1x1x512_S_d0_1_2_3 : S1x1x1x512.ReducesTo [0, 1, 2, 3] S_

variable [Facts]

def fn_part1 {F : FTy → Type} [FloatOps F] (main_arg4 : FVec F S512 .f32) (main_arg5 : FVec F S1x1x1x512 .f32) (main_arg6 : FVec F S1x1x1x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x1x1x512 .f32 := Host.absf main_arg5
  let main_cst_8 : FVec F S_ .f32 := constant S_ .f32 0x7F800000#32
  let main_v25 : FVec F S1x1x1x512 .f32 := broadcastInDim S1x1x1x512 ![] bcast_S_S1x1x1x512 main_cst_8
  let main_v26 : IVec S1x1x1x512 1 := cmpf .olt main_v24 main_v25
  let main_c_9 : IVec S_ 1 := constantI S_ 1 1#1
  let main_v27 : IVec S_ 1 := (fun x v => Host.reduce IntOp.andi x v reducesTo_S1x1x1x512_S_d0_1_2_3 h_S_) main_v26 main_c_9
  let main_v28 : IVec S_ 1 := andi main_v23 main_v27
  let main_v29 : FVec F S1x1x1x512 .f32 := Host.absf main_arg6
  let main_cst_10 : FVec F S_ .f32 := constant S_ .f32 0x7F800000#32
  let main_v30 : FVec F S1x1x1x512 .f32 := broadcastInDim S1x1x1x512 ![] bcast_S_S1x1x1x512 main_cst_10
  let main_v31 : IVec S1x1x1x512 1 := cmpf .olt main_v29 main_v30
  let main_c_11 : IVec S_ 1 := constantI S_ 1 1#1
  let main_v32 : IVec S_ 1 := (fun x v => Host.reduce IntOp.andi x v reducesTo_S1x1x1x512_S_d0_1_2_3 h_S_) main_v31 main_c_11
  let main_v33 : IVec S_ 1 := andi main_v28 main_v32
  main_v33

def fn {F : FTy → Type} [FloatOps F] (main_arg0 : FVec F S8x64x64x512 .f32) (main_arg1 : FVec F S512x1536 .f32) (main_arg2 : FVec F S1536 .f32) (main_arg3 : FVec F S512x512 .f32) (main_arg4 : FVec F S512 .f32) (main_arg5 : FVec F S1x1x1x512 .f32) (main_arg6 : FVec F S1x1x1x512 .f32) : IVec S_ 1 :=
  let main_v0 : FVec F S8x64x64x512 .f32 := Host.absf main_arg0
  let main_cst : FVec F S_ .f32 := constant S_ .f32 0x7F800000#32
  let main_v1 : FVec F S8x64x64x512 .f32 := broadcastInDim S8x64x64x512 ![] bcast_S_S8x64x64x512 main_cst
  let main_v2 : IVec S8x64x64x512 1 := cmpf .olt main_v0 main_v1
  let main_c : IVec S_ 1 := constantI S_ 1 1#1
  let main_v3 : IVec S_ 1 := (fun x v => Host.reduce IntOp.andi x v reducesTo_S8x64x64x512_S_d0_1_2_3 h_S_) main_v2 main_c
  let main_v4 : FVec F S512x1536 .f32 := Host.absf main_arg1
  let main_cst_0 : FVec F S_ .f32 := constant S_ .f32 0x7F800000#32
  let main_v5 : FVec F S512x1536 .f32 := broadcastInDim S512x1536 ![] bcast_S_S512x1536 main_cst_0
  let main_v6 : IVec S512x1536 1 := cmpf .olt main_v4 main_v5
  let main_c_1 : IVec S_ 1 := constantI S_ 1 1#1
  let main_v7 : IVec S_ 1 := (fun x v => Host.reduce IntOp.andi x v reducesTo_S512x1536_S_d0_1 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S8x64x64x512 : Shape := ⟨4, ![8, 64, 64, 512]⟩
abbrev S512x1536 : Shape := ⟨2, ![512, 1536]⟩
abbrev S1536 : Shape := ⟨1, ![1536]⟩
abbrev S512x512 : Shape := ⟨2, ![512, 512]⟩
abbrev S512 : Shape := ⟨1, ![512]⟩
abbrev S1x1x1x512 : Shape := ⟨4, ![1, 1, 1, 512]⟩
abbrev S32768x512 : Shape := ⟨2, ![32768, 512]⟩
abbrev S1x1536 : Shape := ⟨2, ![1, 1536]⟩
abbrev S32768x1536 : Shape := ⟨2, ![32768, 1536]⟩
abbrev S1024x512 : Shape := ⟨2, ![1024, 512]⟩
abbrev S1024x1536 : Shape := ⟨2, ![1024, 1536]⟩
abbrev S8x64x64x1536 : Shape := ⟨4, ![8, 64, 64, 1536]⟩
abbrev S8x64x64x3x8x64 : Shape := ⟨6, ![8, 64, 64, 3, 8, 64]⟩
abbrev S3x8x8x64x64x64 : Shape := ⟨6, ![3, 8, 8, 64, 64, 64]⟩
abbrev S1x8x8x64x64x64 : Shape := ⟨6, ![1, 8, 8, 64, 64, 64]⟩
abbrev S8x8x64x64x64 : Shape := ⟨5, ![8, 8, 64, 64, 64]⟩
abbrev S8x8x4096x64 : Shape := ⟨4, ![8, 8, 4096, 64]⟩
abbrev S1x1x4096x64 : Shape := ⟨4, ![1, 1, 4096, 64]⟩
abbrev S4096x64 : Shape := ⟨2, ![4096, 64]⟩
abbrev S4096 : Shape := ⟨1, ![4096]⟩
abbrev S4096x1 : Shape := ⟨2, ![4096, 1]⟩
abbrev S64 : Shape := ⟨1, ![64]⟩
abbrev S1x64 : Shape := ⟨2, ![1, 64]⟩
abbrev S64x64 : Shape := ⟨2, ![64, 64]⟩
abbrev S8x64x64x8x64 : Shape := ⟨5, ![8, 64, 64, 8, 64]⟩
abbrev S1x512 : Shape := ⟨2, ![1, 512]⟩

abbrev nBuf : Space → Nat
  | .hbm => 33
  | .vmem => 24
  | .smem => 0
  | _ => 0

abbrev bufTy : (tb : Table) → Fin (tcTables nBuf tb) → BufTy
  | .hbm, ⟨0, _⟩ => ⟨S8x64x64x512, .f32⟩
  | .hbm, ⟨1, _⟩ => ⟨S512x1536, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S1x1x1x512, .f32⟩
  | .hbm, ⟨6, _⟩ => ⟨S1x1x1x512, .f32⟩
  | .hbm, ⟨7, _⟩ => ⟨S32768x512, .f32⟩
  | .hbm, ⟨8, _⟩ => ⟨S1x1536, .f32⟩
  | .hbm, ⟨9, _⟩ => ⟨S32768x1536, .f32⟩
  | .hbm, ⟨10, _⟩ => ⟨S8x64x64x1536, .f32⟩
  | .hbm, ⟨11, _⟩ => ⟨S8x64x64x3x8x64, .f32⟩
  | .hbm, ⟨12, _⟩ => ⟨S3x8x8x64x64x64, .f32⟩
  | .hbm, ⟨13, _⟩ => ⟨S1x8x8x64x64x64, .f32⟩
  | .hbm, ⟨14, _⟩ => ⟨S8x8x64x64x64, .f32⟩
  | .hbm, ⟨15, _⟩ => ⟨S8x8x4096x64, .f32⟩
  | .hbm, ⟨16, _⟩ => ⟨S1x8x8x64x64x64, .f32⟩
  | .hbm, ⟨17, _⟩ => ⟨S8x8x64x64x64, .f32⟩
  | .hbm, ⟨18, _⟩ => ⟨S8x8x4096x64, .f32⟩
  | .hbm, ⟨19, _⟩ => ⟨S1x8x8x64x64x64, .f32⟩
  | .hbm, ⟨20, _⟩ => ⟨S8x8x64x64x64, .f32⟩
  | .hbm, ⟨21, _⟩ => ⟨S8x8x4096x64, .f32⟩
  | .hbm, ⟨22, _⟩ => ⟨S8x8x4096x64, .f32⟩
  | .hbm, ⟨23, _⟩ => ⟨S8x8x64x64x64, .f32⟩
  | .hbm, ⟨24, _⟩ => ⟨S8x64x64x8x64, .f32⟩
  | .hbm, ⟨25, _⟩ => ⟨S8x64x64x512, .f32⟩
  | .hbm, ⟨26, _⟩ => ⟨S32768x512, .f32⟩
  | .hbm, ⟨27, _⟩ => ⟨S32768x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S32768x512, .f32⟩
  | .hbm, ⟨32, _⟩ => ⟨S8x64x64x512, .f32⟩
  | .local _ .vmem, ⟨0, _⟩ => ⟨S1024x512, .f32⟩
  | .local _ .vmem, ⟨1, _⟩ => ⟨S1024x512, .f32⟩
  | .local _ .vmem, ⟨2, _⟩ => ⟨S512x1536, .f32⟩
  | .local _ .vmem, ⟨3, _⟩ => ⟨S1x1536, .f32⟩
  | .local _ .vmem, ⟨4, _⟩ => ⟨S1024x1536, .f32⟩
  | .local _ .vmem, ⟨5, _⟩ => ⟨S1024x1536, .f32⟩
  | .local _ .vmem, ⟨6, _⟩ => ⟨S1x1x4096x64, .f32⟩
  | .local _ .vmem, ⟨7, _⟩ => ⟨S1x1x4096x64, .f32⟩
  | .local _ .vmem, ⟨8, _⟩ => ⟨S1x1x4096x64, .f32⟩
  | .local _ .vmem, ⟨9, _⟩ => ⟨S1x1x4096x64, .f32⟩
  | .local _ .vmem, ⟨10, _⟩ => ⟨S1x1x4096x64, .f32⟩
  | .local _ .vmem, ⟨11, _⟩ => ⟨S1x1x4096x64, .f32⟩
  | .local _ .vmem, ⟨12, _⟩ => ⟨S1x1x4096x64, .f32⟩
  | .local _ .vmem, ⟨13, _⟩ => ⟨S1x1x4096x64, .f32⟩
  | .local _ .vmem, ⟨14, _⟩ => ⟨S1024x512, .f32⟩
  | .local _ .vmem, ⟨15, _⟩ => ⟨S1024x512, .f32⟩
  | .local _ .vmem, ⟨16, _⟩ => ⟨S512x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1024x512, .f32⟩
  | .local _ .vmem, ⟨21, _⟩ => ⟨S1024x512, .f32⟩
  | .local _ .vmem, ⟨22, _⟩ => ⟨S1024x512, .f32⟩
  | .local _ .vmem, ⟨23, _⟩ => ⟨S1024x512, .f32⟩
  | _, _ => ⟨S8x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4096x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x4096x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1024x512 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S8x64x64x512_S32768x512 : S8x64x64x512.ShapeCasts S32768x512
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  shapeCasts_S32768x1536_S8x64x64x1536 : S32768x1536.ShapeCasts S8x64x64x1536
  shapeCasts_S8x64x64x1536_S8x64x64x3x8x64 : S8x64x64x1536.ShapeCasts S8x64x64x3x8x64
  transposes_S8x64x64x3x8x64_S3x8x8x64x64x64_3_0_4_1_2_5 : S8x64x64x3x8x64.Transposes [3, 0, 4, 1, 2, 5] S3x8x8x64x64x64
  slices_S3x8x8x64x64x64_S1x8x8x64x64x64_0_0_0_0_0_0 : S3x8x8x64x64x64.Slices ![0, 0, 0, 0, 0, 0] S1x8x8x64x64x64
  shapeCasts_S1x8x8x64x64x64_S8x8x64x64x64 : S1x8x8x64x64x64.ShapeCasts S8x8x64x64x64
  shapeCasts_S8x8x64x64x64_S8x8x4096x64 : S8x8x64x64x64.ShapeCasts S8x8x4096x64
  slices_S3x8x8x64x64x64_S1x8x8x64x64x64_1_0_0_0_0_0 : S3x8x8x64x64x64.Slices ![1, 0, 0, 0, 0, 0] S1x8x8x64x64x64
  slices_S3x8x8x64x64x64_S1x8x8x64x64x64_2_0_0_0_0_0 : S3x8x8x64x64x64.Slices ![2, 0, 0, 0, 0, 0] S1x8x8x64x64x64
  inb_S1x1x4096x64_S1x1x4096x64_0_0_0_0 : ∀ a, (![0, 0, 0, 0] : Fin 4 → Nat) a + S1x1x4096x64.size a ≤ S1x1x4096x64.size a
  h_S1x1x4096x64 : 0 < S1x1x4096x64.numel
  shapeCasts_S1x1x4096x64_S4096x64 : S1x1x4096x64.ShapeCasts S4096x64
  reduces_S4096x64_S4096 : S4096x64.Reduces [1] S4096
  shapeCasts_S4096_S4096x1 : S4096.ShapeCasts S4096x1
  broadcasts_S4096x1_S4096x64 : S4096x1.Broadcasts S4096x64
  reduces_S4096x64_S64 : S4096x64.Reduces [0] S64
  shapeCasts_S64_S1x64 : S64.ShapeCasts S1x64
  broadcasts_S1x64_S4096x64 : S1x64.Broadcasts S4096x64
  shapeCasts_S4096x64_S1x1x4096x64 : S4096x64.ShapeCasts S1x1x4096x64
  shapeCasts_S8x8x4096x64_S8x8x64x64x64 : S8x8x4096x64.ShapeCasts S8x8x64x64x64
  transposes_S8x8x64x64x64_S8x64x64x8x64_0_2_3_1_4 : S8x8x64x64x64.Transposes [0, 2, 3, 1, 4] S8x64x64x8x64
  shapeCasts_S8x64x64x8x64_S8x64x64x512 : S8x64x64x8x64.ShapeCasts S8x64x64x512
  shapeCasts_S1x1x1x512_S1x512 : S1x1x1x512.ShapeCasts S1x512
  shapeCasts_S512_S1x512 : S512.ShapeCasts S1x512
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S32768x512_S8x64x64x512 : S32768x512.ShapeCasts S8x64x64x512
  dot_S1024x512_S512x1536_S1024x1536_1_0_0_1_n_n_wf : DotDims.WF S1024x512 S512x1536 S1024x1536 [1] [0] [0] [1] [] []
  dot_S4096x64_S4096x64_S64x64_0_0_1_1_n_n_wf : DotDims.WF S4096x64 S4096x64 S64x64 [0] [0] [1] [1] [] []
  dot_S4096x64_S64x64_S4096x64_1_0_0_1_n_n_wf : DotDims.WF S4096x64 S64x64 S4096x64 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x1536.size a
  hwx0_1 : ∀ i : grid0.Coords, EltTy.bits .f32 = 32 ∨ (Rect.block (s := S512x1536) S512x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x1536.size a
  hwx0_2 : ∀ i : grid0.Coords, EltTy.bits .f32 = 32 ∨ (Rect.block (s := S1x1536) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S32768x1536.size a
  hwx0_3 : ∀ i : grid0.Coords, EltTy.bits .f32 = 32 ∨ (Rect.block (s := S32768x1536) S1024x1536.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x4096x64.size a ≤ S8x8x4096x64.size a
  hwx1_0 : ∀ i : grid1.Coords, EltTy.bits .f32 = 32 ∨ (Rect.block (s := S8x8x4096x64) S1x1x4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4096x64.size a ≤ S8x8x4096x64.size a
  hwx1_1 : ∀ i : grid1.Coords, EltTy.bits .f32 = 32 ∨ (Rect.block (s := S8x8x4096x64) S1x1x4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x4096x64.size a ≤ S8x8x4096x64.size a
  hwx1_2 : ∀ i : grid1.Coords, EltTy.bits .f32 = 32 ∨ (Rect.block (s := S8x8x4096x64) S1x1x4096x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x4096x64.size a ≤ S8x8x4096x64.size a
  hwx1_3 : ∀ i : grid1.Coords, EltTy.bits .f32 = 32 ∨ (Rect.block (s := S8x8x4096x64) S1x1x4096x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S32768x512.size a
  hwx2_0 : ∀ i : grid2.Coords, EltTy.bits .f32 = 32 ∨ (Rect.block (s := S32768x512) S1024x512.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x512.size a
  hwx2_3 : ∀ i : grid2.Coords, EltTy.bits .f32 = 32 ∨ (Rect.block (s := S1x512) S1x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x512.size a ≤ S32768x512.size a
  hwx2_5 : ∀ i : grid2.Coords, EltTy.bits .f32 = 32 ∨ (Rect.block (s := S32768x512) S1024x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1024x512.size a ≤ S32768x512.size a
  hwx2_6 : ∀ i : grid2.Coords, EltTy.bits .f32 = 32 ∨ (Rect.block (s := S32768x512) S1024x512.size (cc2_transform_6 i) (hinb2_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def dot_S4096x64_S4096x64_S64x64_0_0_1_1_n_n : DotDims S4096x64 S4096x64 S64x64 where
  lhsContracting := [0]
  rhsContracting := [0]
  lhsNonContracting := [1]
  rhsNonContracting := [1]
  lhsBatch := []
  rhsBatch := []
  wf := dot_S4096x64_S4096x64_S64x64_0_0_1_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S1x1x4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1x4096x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x1x4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v19) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v21) S1x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v20) S1024x512.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v24) S1024x512.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S8x64x64x512 : Shape := ⟨4, ![8, 64, 64, 512]⟩
abbrev S512x1536 : Shape := ⟨2, ![512, 1536]⟩
abbrev S1536 : Shape := ⟨1, ![1536]⟩
abbrev S512x512 : Shape := ⟨2, ![512, 512]⟩
abbrev S512 : Shape := ⟨1, ![512]⟩
abbrev S1x1x1x512 : Shape := ⟨4, ![1, 1, 1, 512]⟩
abbrev S8x64x64x1536 : Shape := ⟨4, ![8, 64, 64, 1536]⟩
abbrev S1x1x1x1536 : Shape := ⟨4, ![1, 1, 1, 1536]⟩
abbrev S8x64x64x3x8x64 : Shape := ⟨6, ![8, 64, 64, 3, 8, 64]⟩
abbrev S3x8x8x64x64x64 : Shape := ⟨6, ![3, 8, 8, 64, 64, 64]⟩
abbrev S1x8x8x64x64x64 : Shape := ⟨6, ![1, 8, 8, 64, 64, 64]⟩
abbrev S8x8x64x64x64 : Shape := ⟨5, ![8, 8, 64, 64, 64]⟩
abbrev S8x8x4096x64 : Shape := ⟨4, ![8, 8, 4096, 64]⟩
abbrev S_ : Shape := ⟨0, ![]⟩
abbrev S8x8x4096 : Shape := ⟨3, ![8, 8, 4096]⟩
abbrev S8x8x4096x1 : Shape := ⟨4, ![8, 8, 4096, 1]⟩
abbrev S8x8x64 : Shape := ⟨3, ![8, 8, 64]⟩
abbrev S8x8x1x64 : Shape := ⟨4, ![8, 8, 1, 64]⟩
abbrev S8x8x64x64 : Shape := ⟨4, ![8, 8, 64, 64]⟩
abbrev S8x64x64x8x64 : Shape := ⟨5, ![8, 64, 64, 8, 64]⟩

abbrev nBuf : Space → Nat
  | .hbm => 72
  | .vmem => 0
  | .smem => 0
  | _ => 0

abbrev bufTy : (tb : Table) → Fin (tcTables nBuf tb) → BufTy
  | .hbm, ⟨0, _⟩ => ⟨S8x64x64x512, .f32⟩
  | .hbm, ⟨1, _⟩ => ⟨S512x1536, .f32⟩
  | .hbm, ⟨2, _⟩ => ⟨S1536, .f32⟩
  | .hbm, ⟨3, _⟩ => ⟨S512x512, .f32⟩
  | .hbm, ⟨4, _⟩ => ⟨S512, .f32⟩
  | .hbm, ⟨5, _⟩ => ⟨S1x1x1x512, .f32⟩
  | .hbm, ⟨6, _⟩ => ⟨S1x1x1x512, .f32⟩
  | .hbm, ⟨7, _⟩ => ⟨S8x64x64x1536, .f32⟩
  | .hbm, ⟨8, _⟩ => ⟨S1x1x1x1536, .f32⟩
  | .hbm, ⟨9, _⟩ => ⟨S8x64x64x1536, .f32⟩
  | .hbm, ⟨10, _⟩ => ⟨S8x64x64x1536, .f32⟩
  | .hbm, ⟨11, _⟩ => ⟨S8x64x64x3x8x64, .f32⟩
  | .hbm, ⟨12, _⟩ => ⟨S3x8x8x64x64x64, .f32⟩
  | .hbm, ⟨13, _⟩ => ⟨S1x8x8x64x64x64, .f32⟩
  | .hbm, ⟨14, _⟩ => ⟨S8x8x64x64x64, .f32⟩
  | .hbm, ⟨15, _⟩ => ⟨S1x8x8x64x64x64, .f32⟩
  | .hbm, ⟨16, _⟩ => ⟨S8x8x64x64x64, .f32⟩
  | .hbm, ⟨17, _⟩ => ⟨S1x8x8x64x64x64, .f32⟩
  | .hbm, ⟨18, _⟩ => ⟨S8x8x64x64x64, .f32⟩
  | .hbm, ⟨19, _⟩ => ⟨S8x8x4096x64, .f32⟩
  | .hbm, ⟨20, _⟩ => ⟨S8x8x4096x64, .f32⟩
  | .hbm, ⟨21, _⟩ => ⟨S8x8x4096x64, .f32⟩
  | .hbm, ⟨22, _⟩ => ⟨S_, .f32⟩
  | .hbm, ⟨23, _⟩ => ⟨S8x8x4096, .f32⟩
  | .hbm, ⟨24, _⟩ => ⟨S_, .f32⟩
  | .hbm, ⟨25, _⟩ => ⟨S8x8x4096, .f32⟩
  | .hbm, ⟨26, _⟩ => ⟨S8x8x4096, .f32⟩
  | .hbm, ⟨27, _⟩ => ⟨S8x8x4096x1, .f32⟩
  | .hbm, ⟨28, _⟩ => ⟨S8x8x4096x64, .f32⟩
  | .hbm, ⟨29, _⟩ => ⟨S8x8x4096x64, .f32⟩
  | .hbm, ⟨30, _⟩ => ⟨S8x8x4096x64, .f32⟩
  | .hbm, ⟨31, _⟩ => ⟨S_, .f32⟩
  | .hbm, ⟨32, _⟩ => ⟨S8x8x4096, .f32⟩
  | .hbm, ⟨33, _⟩ => ⟨S8x8x4096x1, .f32⟩
  | .hbm, ⟨34, _⟩ => ⟨S8x8x4096x64, .f32⟩
  | .hbm, ⟨35, _⟩ => ⟨S8x8x4096x64, .f32⟩
  | .hbm, ⟨36, _⟩ => ⟨S_, .f32⟩
  | .hbm, ⟨37, _⟩ => ⟨S8x8x64, .f32⟩
  | .hbm, ⟨38, _⟩ => ⟨S_, .f32⟩
  | .hbm, ⟨39, _⟩ => ⟨S8x8x64, .f32⟩
  | .hbm, ⟨40, _⟩ => ⟨S8x8x64, .f32⟩
  | .hbm, ⟨41, _⟩ => ⟨S8x8x1x64, .f32⟩
  | .hbm, ⟨42, _⟩ => ⟨S8x8x4096x64, .f32⟩
  | .hbm, ⟨43, _⟩ => ⟨S8x8x4096x64, .f32⟩
  | .hbm, ⟨44, _⟩ => ⟨S8x8x4096x64, .f32⟩
  | .hbm, ⟨45, _⟩ => ⟨S_, .f32⟩
  | .hbm, ⟨46, _⟩ => ⟨S8x8x64, .f32⟩
  | .hbm, ⟨47, _⟩ => ⟨S8x8x1x64, .f32⟩
  | .hbm, ⟨48, _⟩ => ⟨S8x8x4096x64, .f32⟩
  | .hbm, ⟨49, _⟩ => ⟨S8x8x4096x64, .f32⟩
  | .hbm, ⟨50, _⟩ => ⟨S8x8x64x64, .f32⟩
  | .hbm, ⟨51, _⟩ => ⟨S8x8x4096x64, .f32⟩
  | .hbm, ⟨52, _⟩ => ⟨S8x8x64x64x64, .f32⟩
  | .hbm, ⟨53, _⟩ => ⟨S8x64x64x8x64, .f32⟩
  | .hbm, ⟨54, _⟩ => ⟨S8x64x64x512, .f32⟩
  | .hbm, ⟨55, _⟩ => ⟨S8x64x64x512, .f32⟩
  | .hbm, ⟨56, _⟩ => ⟨S1x1x1x512, .f32⟩
  | .hbm, ⟨57, _⟩ => ⟨S8x64x64x512, .f32⟩
  | .hbm, ⟨58, _⟩ => ⟨S8x64x64x512, .f32⟩
  | .hbm, ⟨59, _⟩ => ⟨S1x1x1x512, .f32⟩
  | .hbm, ⟨60, _⟩ => ⟨S1x1x1x512, .f32⟩
  | .hbm, ⟨61, _⟩ => ⟨S_, .f32⟩
  | .hbm, ⟨62, _⟩ => ⟨S1x1x1x512, .f32⟩
  | .hbm, ⟨63, _⟩ => ⟨S1x1x1x512, .f32⟩
  | .hbm, ⟨64, _⟩ => ⟨S_, .f32⟩
  | .hbm, ⟨65, _⟩ => ⟨S1x1x1x512, .f32⟩
  | .hbm, ⟨66, _⟩ => ⟨S1x1x1x512, .f32⟩
  | .hbm, ⟨67, _⟩ => ⟨S8x64x64x512, .f32⟩
  | .hbm, ⟨68, _⟩ => ⟨S8x64x64x512, .f32⟩
  | .hbm, ⟨69, _⟩ => ⟨S8x64x64x512, .f32⟩
  | .hbm, ⟨70, _⟩ => ⟨S8x64x64x512, .f32⟩
  | .hbm, ⟨71, _⟩ => ⟨S8x64x64x512, .f32⟩
  | _, _ => ⟨S8x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_5 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩

abbrev nD : Nat := 1
abbrev τ : Topo := Topo.v7x

variable {F : FTy → Type} [FloatOps F]

class Facts₀ : Prop where
  bcast_S1536_S1x1x1x1536_3 : S1536.BroadcastsInDim S1x1x1x1536 (![3] : Fin 1 → Fin S1x1x1x1536.rank)
  bcast_S1x1x1x1536_S8x64x64x1536_0_1_2_3 : S1x1x1x1536.BroadcastsInDim S8x64x64x1536 (![0, 1, 2, 3] : Fin 4 → Fin S8x64x64x1536.rank)
  shapeCasts_S8x64x64x1536_S8x64x64x3x8x64 : S8x64x64x1536.ShapeCasts S8x64x64x3x8x64
  transposes_S8x64x64x3x8x64_S3x8x8x64x64x64_3_0_4_1_2_5 : S8x64x64x3x8x64.Transposes [3, 0, 4, 1, 2, 5] S3x8x8x64x64x64
  slices_S3x8x8x64x64x64_S1x8x8x64x64x64_0_0_0_0_0_0 : S3x8x8x64x64x64.Slices ![0, 0, 0, 0, 0, 0] S1x8x8x64x64x64
  shapeCasts_S1x8x8x64x64x64_S8x8x64x64x64 : S1x8x8x64x64x64.ShapeCasts S8x8x64x64x64
  slices_S3x8x8x64x64x64_S1x8x8x64x64x64_1_0_0_0_0_0 : S3x8x8x64x64x64.Slices ![1, 0, 0, 0, 0, 0] S1x8x8x64x64x64
  slices_S3x8x8x64x64x64_S1x8x8x64x64x64_2_0_0_0_0_0 : S3x8x8x64x64x64.Slices ![2, 0, 0, 0, 0, 0] S1x8x8x64x64x64
  shapeCasts_S8x8x64x64x64_S8x8x4096x64 : S8x8x64x64x64.ShapeCasts S8x8x4096x64
  reducesTo_S8x8x4096x64_S8x8x4096_d3 : S8x8x4096x64.ReducesTo [3] S8x8x4096
  h_S_ : 0 < S_.numel
  bcast_S_S8x8x4096 : S_.BroadcastsInDim S8x8x4096 (![] : Fin 0 → Fin S8x8x4096.rank)
  bcast_S8x8x4096_S8x8x4096x1_0_1_2 : S8x8x4096.BroadcastsInDim S8x8x4096x1 (![0, 1, 2] : Fin 3 → Fin S8x8x4096x1.rank)
  bcast_S8x8x4096x1_S8x8x4096x64_0_1_2_3 : S8x8x4096x1.BroadcastsInDim S8x8x4096x64 (![0, 1, 2, 3] : Fin 4 → Fin S8x8x4096x64.rank)
  reducesTo_S8x8x4096x64_S8x8x64_d2 : S8x8x4096x64.ReducesTo [2] S8x8x64
  bcast_S_S8x8x64 : S_.BroadcastsInDim S8x8x64 (![] : Fin 0 → Fin S8x8x64.rank)
  bcast_S8x8x64_S8x8x1x64_0_1_3 : S8x8x64.BroadcastsInDim S8x8x1x64 (![0, 1, 3] : Fin 3 → Fin S8x8x1x64.rank)
  bcast_S8x8x1x64_S8x8x4096x64_0_1_2_3 : S8x8x1x64.BroadcastsInDim S8x8x4096x64 (![0, 1, 2, 3] : Fin 4 → Fin S8x8x4096x64.rank)
  shapeCasts_S8x8x4096x64_S8x8x64x64x64 : S8x8x4096x64.ShapeCasts S8x8x64x64x64
  transposes_S8x8x64x64x64_S8x64x64x8x64_0_2_3_1_4 : S8x8x64x64x64.Transposes [0, 2, 3, 1, 4] S8x64x64x8x64
  shapeCasts_S8x64x64x8x64_S8x64x64x512 : S8x64x64x8x64.ShapeCasts S8x64x64x512
  bcast_S512_S1x1x1x512_3 : S512.BroadcastsInDim S1x1x1x512 (![3] : Fin 1 → Fin S1x1x1x512.rank)
  bcast_S1x1x1x512_S8x64x64x512_0_1_2_3 : S1x1x1x512.BroadcastsInDim S8x64x64x512 (![0, 1, 2, 3] : Fin 4 → Fin S8x64x64x512.rank)
  bcast_S_S1x1x1x512 : S_.BroadcastsInDim S1x1x1x512 (![] : Fin 0 → Fin S1x1x1x512.rank)
  dot_S8x64x64x512_S512x1536_S8x64x64x1536_3_0_012_1_n_n_wf : DotDims.WF S8x64x64x512 S512x1536 S8x64x64x1536 [3] [0] [0, 1, 2] [1] [] []
  dot_S8x8x4096x64_S8x8x4096x64_S8x8x64x64_2_2_3_3_01_01_wf : DotDims.WF S8x8x4096x64 S8x8x4096x64 S8x8x64x64 [2] [2] [3] [3] [0, 1] [0, 1]
  dot_S8x8x4096x64_S8x8x64x64_S8x8x4096x64_3_2_2_3_01_01_wf : DotDims.WF S8x8x4096x64 S8x8x64x64 S8x8x4096x64 [3] [2] [2] [3] [0, 1] [0, 1]
  dot_S8x64x64x512_S512x512_S8x64x64x512_3_0_012_1_n_n_wf : DotDims.WF S8x64x64x512 S512x512 S8x64x64x512 [3] [0] [0, 1, 2] [1] [] []

variable [Facts₀]

def dot_S8x64x64x512_S512x1536_S8x64x64x1536_3_0_012_1_n_n : DotDims S8x64x64x512 S512x1536 S8x64x64x1536 where
  lhsContracting := [3]
  rhsContracting := [0]
  lhsNonContracting := [0, 1, 2]
  rhsNonContracting := [1]
  lhsBatch := []
  rhsBatch := []
  wf := dot_S8x64x64x512_S512x1536_S8x64x64x1536_3_0_012_1_n_n_wf
def dot_S8x8x4096x64_S8x8x4096x64_S8x8x64x64_2_2_3_3_01_01 : DotDims S8x8x4096x64 S8x8x4096x64 S8x8x64x64 where
  lhsContracting := [2]
  rhsContracting := [2]
  lhsNonContracting := [3]
  rhsNonContracting := [3]
  lhsBatch := [0, 1]
  rhsBatch := [0, 1]
  wf := dot_S8x8x4096x64_S8x8x4096x64_S8x8x64x64_2_2_3_3_01_01_wf
def dot_S8x8x4096x64_S8x8x64x64_S8x8x4096x64_3_2_2_3_01_01 : DotDims S8x8x4096x64 S8x8x64x64 S8x8x4096x64 where
  lhsContracting := [3]
  rhsContracting := [2]
  lhsNonContracting := [2]
  rhsNonContracting := [3]
  lhsBatch := [0, 1]
  rhsBatch := [0, 1]
  wf := dot_S8x8x4096x64_S8x8x64x64_S8x8x4096x64_3_2_2_3_01_01_wf
def dot_S8x64x64x512_S512x512_S8x64x64x512_3_0_012_1_n_n : DotDims S8x64x64x512 S512x512 S8x64x64x512 where
  lhsContracting := [3]
  rhsContracting := [0]
  lhsNonContracting := [0, 1, 2]
  rhsNonContracting := [1]
  lhsBatch := []
  rhsBatch := []
  wf := dot_S8x64x64x512_S512x512_S8x64x64x512_3_0_012_1_n_n_wf

class Facts : Prop extends Facts₀ where

variable [Facts]
-- ==== Proof.Spec.lean ====
/-
  What the attention block computes, as functions of its argument arrays, entry by entry on the extended reals.

  Three stages.  (1) A projection: every pixel's 512 channels are multiplied into a 512 x 1536 matrix and a bias is
  added.  (2) Linear attention, separately for each of the 8 x 8 (image, head) pairs over 4096 positions and 64
  features: the queries are normalised along the features and the keys along the positions, each by the exponential of
  the entry less the maximum of its row (column) divided by the sum of those exponentials; the context is the 64 x 64
  matrix  sum over positions of  key-weight(l, j) * value(l, d),  and the result at position l is the query weights of l
  applied to the context.  (3) An output projection with a bias, scaled per channel by 1 / (1 + exp (-gamma)), shifted by
  beta and added to the input.

  Stages (1) and (3) are stated twice: over the 32768 x C row-major matrix of pixels and over the 8 x 64 x 64 x C array;
  the two forms are related in Proof/Layout.lean.  Every maximum starts from the value of the word 0xFF800000 (minus
  infinity), as both programs take it.
-/
import Idealize.ShloMosaic.PureOps.Ideal.Laws
import Idealize.ShloMosaic.Lib.ValueIdx

noncomputable section

namespace Cert.Spec

open Idealize.ShloMosaic Idealize.ShloMosaic.ValueIdx

/-! ## The shapes -/

abbrev Sx4 : Shape := ⟨4, ![8, 64, 64, 512]⟩      -- the input, the attention's output re-laid, the result
abbrev Sxf : Shape := ⟨2, ![32768, 512]⟩          -- the same, one row per pixel
abbrev Swqkv : Shape := ⟨2, ![512, 1536]⟩         -- the first projection's matrix
abbrev Sb3 : Shape := ⟨1, ![1536]⟩                -- its bias
abbrev Sb3r : Shape := ⟨2, ![1, 1536]⟩            -- its bias as one row
abbrev Sp4 : Shape := ⟨4, ![8, 64, 64, 1536]⟩     -- the projected pixels
abbrev Spf : Shape := ⟨2, ![32768, 1536]⟩         -- the same, one row per pixel
abbrev Sh : Shape := ⟨4, ![8, 8, 4096, 64]⟩       -- queries, keys, values, attention output: image, head, position, feature
abbrev Swo : Shape := ⟨2, ![512, 512]⟩            -- the output projection's matrix
abbrev Sc : Shape := ⟨1, ![512]⟩                  -- its bias
abbrev Scr : Shape := ⟨2, ![1, 512]⟩              -- a per-channel row
abbrev Sg : Shape := ⟨4, ![1, 1, 1, 512]⟩         -- gamma, beta

/-- The value every maximum starts from: minus infinity. -/
abbrev negInf : EReal := Ideal.ofBits .f32 0xFF800000#32

/-! ## Stage 1: the projection -/

/-- Row `r`, column `d`: the row of `X` times the column of `W`, plus the bias row's entry. -/
def projFlat (X : FVec Ideal Sxf .f32) (W : FVec Ideal Swqkv .f32) (B : FVec Ideal Sb3r .f32) : FVec Ideal Spf .f32 :=
  fun i => (∑ k : Fin 512, X (ix2 (i 0) k) * W (ix2 k (i 1))) + B (ix2 0 (i 1))

/-- Pixel `(n, h, w)`, column `d`: its channels times the column of `W`, plus the bias. -/
def projSpec (x : FVec Ideal Sx4 .f32) (W : FVec Ideal Swqkv .f32) (b : FVec Ideal Sb3 .f32) : FVec Ideal Sp4 .f32 :=
  fun i => (∑ k : Fin 512, x (ix4 (i 0) (i 1) (i 2) k) * W (ix2 k (i 3))) + b (ix1 (i 3))

/-! ## Stage 2: linear attention -/

/-- The largest of the 64 features of the query at position `l`. -/
def rowMax (q : FVec Ideal Sh .f32) (n e : Fin 8) (l : Fin 4096) : EReal :=
  max negInf ((Finset.univ : Finset (Fin 64)).fold max negInf fun j => q (ix4 n e l j))

/-- `exp` of a query feature less its row's maximum. -/
def rowExp (q : FVec Ideal Sh .f32) (n e : Fin 8) (l : Fin 4096) (j : Fin 64) : EReal :=
  Ideal.exp (q (ix4 n e l j) - rowMax q n e l)

/-- The query's weight on feature `j`: normalised along the features. -/
def rowSoft (q : FVec Ideal Sh .f32) (n e : Fin 8) (l : Fin 4096) (j : Fin 64) : EReal :=
  Ideal.div (rowExp q n e l j) (∑ j' : Fin 64, rowExp q n e l j')

/-- The largest over the 4096 positions of feature `j` of the keys. -/
def colMax (k : FVec Ideal Sh .f32) (n e : Fin 8) (j : Fin 64) : EReal :=
  max negInf ((Finset.univ : Finset (Fin 4096)).fold max negInf fun l => k (ix4 n e l j))

/-- `exp` of a key feature less its column's maximum. -/
def colExp (k : FVec Ideal Sh .f32) (n e : Fin 8) (l : Fin 4096) (j : Fin 64) : EReal :=
  Ideal.exp (k (ix4 n e l j) - colMax k n e j)

/-- The key's weight at position `l`: normalised along the positions. -/
def colSoft (k : FVec Ideal Sh .f32) (n e : Fin 8) (l : Fin 4096) (j : Fin 64) : EReal :=
  Ideal.div (colExp k n e l j) (∑ l' : Fin 4096, colExp k n e l' j)

/-- The context matrix of one (image, head): key weights against values, summed over the positions. -/
def context (k v : FVec Ideal Sh .f32) (n e : Fin 8) (j d : Fin 64) : EReal :=
  ∑ l : Fin 4096, colSoft k n e l j * v (ix4 n e l d)

/-- The attention output at position `l`, feature `d`: the query's weights applied to the context. -/
def attnSpec (q k v : FVec Ideal Sh .f32) : FVec Ideal Sh .f32 :=
  fun i => ∑ j : Fin 64, rowSoft q (i 0) (i 1) (i 2) j * context k v (i 0) (i 1) j (i 3)

/-! ## Stage 3: the output projection, the gate and the residual -/

/-- Row `r`, channel `c`, summed as the kernel does: (input + projection * gate) + shift. -/
def outFlat (A : FVec Ideal Sxf .f32) (W : FVec Ideal Swo .f32) (B Γ Β : FVec Ideal Scr .f32) (I : FVec Ideal Sxf .f32) :
    FVec Ideal Sxf .f32 :=
  fun i => (I i + ((∑ k : Fin 512, A (ix2 (i 0) k) * W (ix2 k (i 1))) + B (ix2 0 (i 1))) * Ideal.logistic (Γ (ix2 0 (i 1))))
    + Β (ix2 0 (i 1))

/-- Pixel `(n, h, w)`, channel `c`, summed as the reference does: input + (projection * gate + shift). -/
def outSpec (A x : FVec Ideal Sx4 .f32) (W : FVec Ideal Swo .f32) (b : FVec Ideal Sc .f32) (γ β : FVec Ideal Sg .f32) :
    FVec Ideal Sx4 .f32 :=
  fun i => x i + (((∑ k : Fin 512, A (ix4 (i 0) (i 1) (i 2) k) * W (ix2 k (i 3))) + b (ix1 (i 3)))
    * Ideal.logistic (γ (ix4 0 0 0 (i 3))) + β (ix4 0 0 0 (i 3)))

end Cert.Spec

end
-- ==== Proof.KTerm.lean ====
/-
  The kernel program's result as ONE term of its seven arguments.

  Between its three regions the program only re-lays arrays: the projected pixels are split into the three groups of 512
  columns and each group into 8 heads of 64 features, the heads moved in front of the positions (`qOf`, `kOf`, `vOf`: one
  reshape, one transpose, one slice and two reshapes each); the attention output goes back the same way (`mergeHeads`).
  Around the regions the pixels are read as the rows of a 32768-row matrix.  `kernelOut` composes the three stages of
  Proof/Spec.lean through these re-layings, in the row form the regions produce.
-/
import proofs.«176690_j1778116460958_1_alg».proof.Proof.Gen.KernelIdeal
import proofs.«176690_j1778116460958_1_alg».proof.Proof.Spec

noncomputable section

namespace Cert.KernelIdeal.Hand

open Idealize.ShloMosaic Cert.KernelIdeal Cert.KernelIdeal.Facts₀

variable {F : FTy → Type} [FloatOps F]

/-- The projected pixels as (group, image, head, row, column, feature): the array all three of q, k, v are cut from. -/
def heads (p : FVec F S8x64x64x1536 .f32) : FVec F S3x8x8x64x64x64 .f32 :=
  transpose S3x8x8x64x64x64 [3, 0, 4, 1, 2, 5] (shapeCast S8x64x64x3x8x64 p shapeCasts_S8x64x64x1536_S8x64x64x3x8x64)
    transposes_S8x64x64x3x8x64_S3x8x8x64x64x64_3_0_4_1_2_5

/-- The queries: group 0, positions flattened. -/
def qOf (p : FVec F S8x64x64x1536 .f32) : FVec F S8x8x4096x64 .f32 :=
  shapeCast S8x8x4096x64 (shapeCast S8x8x64x64x64
    (extractStridedSlice S1x8x8x64x64x64 ![0, 0, 0, 0, 0, 0] (heads p) slices_S3x8x8x64x64x64_S1x8x8x64x64x64_0_0_0_0_0_0)
    shapeCasts_S1x8x8x64x64x64_S8x8x64x64x64) shapeCasts_S8x8x64x64x64_S8x8x4096x64

/-- The keys: group 1. -/
def kOf (p : FVec F S8x64x64x1536 .f32) : FVec F S8x8x4096x64 .f32 :=
  shapeCast S8x8x4096x64 (shapeCast S8x8x64x64x64
    (extractStridedSlice S1x8x8x64x64x64 ![1, 0, 0, 0, 0, 0] (heads p) slices_S3x8x8x64x64x64_S1x8x8x64x64x64_1_0_0_0_0_0)
    shapeCasts_S1x8x8x64x64x64_S8x8x64x64x64) shapeCasts_S8x8x64x64x64_S8x8x4096x64

/-- The values: group 2. -/
def vOf (p : FVec F S8x64x64x1536 .f32) : FVec F S8x8x4096x64 .f32 :=
  shapeCast S8x8x4096x64 (shapeCast S8x8x64x64x64
    (extractStridedSlice S1x8x8x64x64x64 ![2, 0, 0, 0, 0, 0] (heads p) slices_S3x8x8x64x64x64_S1x8x8x64x64x64_2_0_0_0_0_0)
    shapeCasts_S1x8x8x64x64x64_S8x8x64x64x64) shapeCasts_S8x8x64x64x64_S8x8x4096x64

/-- The attention output back as pixels by 512 channels: positions unflattened, the head moved behind them, head and
    feature joined. -/
def mergeHeads (a : FVec F S8x8x4096x64 .f32) : FVec F S8x64x64x512 .f32 :=
  shapeCast S8x64x64x512 (transpose S8x64x64x8x64 [0, 2, 3, 1, 4]
    (shapeCast S8x8x64x64x64 a shapeCasts_S8x8x4096x64_S8x8x64x64x64) transposes_S8x8x64x64x64_S8x64x64x8x64_0_2_3_1_4)
    shapeCasts_S8x64x64x8x64_S8x64x64x512

/-- The projected pixels as the first region leaves them and @main re-lays them: [8, 64, 64, 1536]. -/
def projK (x0 : FVec Ideal S8x64x64x512 .f32) (x1 : FVec Ideal S512x1536 .f32) (x2 : FVec Ideal S1536 .f32) :
    FVec Ideal S8x64x64x1536 .f32 :=
  shapeCast S8x64x64x1536 (Cert.Spec.projFlat (shapeCast S32768x512 x0 shapeCasts_S8x64x64x512_S32768x512) x1
    (shapeCast S1x1536 x2 shapeCasts_S1536_S1x1536)) shapeCasts_S32768x1536_S8x64x64x1536

/-- The last region's result re-laid as [8, 64, 64, 512], for ANY attention output `a` in pixel form. -/
def outK (a x0 : FVec Ideal S8x64x64x512 .f32) (x3 : FVec Ideal S512x512 .f32) (x4 : FVec Ideal S512 .f32)
    (x5 x6 : FVec Ideal S1x1x1x512 .f32) : FVec Ideal S8x64x64x512 .f32 :=
  shapeCast S8x64x64x512 (Cert.Spec.outFlat (shapeCast S32768x512 a shapeCasts_S8x64x64x512_S32768x512) x3
    (shapeCast S1x512 x4 shapeCasts_S512_S1x512) (shapeCast S1x512 x5 shapeCasts_S1x1x1x512_S1x512)
    (shapeCast S1x512 x6 shapeCasts_S1x1x1x512_S1x512) (shapeCast S32768x512 x0 shapeCasts_S8x64x64x512_S32768x512))
    shapeCasts_S32768x512_S8x64x64x512

/-- The kernel program's result, of its arguments. -/
def kernelOut (x0 : FVec Ideal S8x64x64x512 .f32) (x1 : FVec Ideal S512x1536 .f32) (x2 : FVec Ideal S1536 .f32)
    (x3 : FVec Ideal S512x512 .f32) (x4 : FVec Ideal S512 .f32) (x5 x6 : FVec Ideal S1x1x1x512 .f32) :
    FVec Ideal S8x64x64x512 .f32 :=
  outK (mergeHeads (Cert.Spec.attnSpec (qOf (projK x0 x1 x2)) (kOf (projK x0 x1 x2)) (vOf (projK x0 x1 x2)))) x0 x3 x4 x5 x6

end Cert.KernelIdeal.Hand

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.Region0.lean ====
/-
  Region 0, the first projection: after its 32 grid points the result array [32768, 1536] holds, at row r and column d,
  the row r of the pixel matrix times column d of the weights plus the bias row's entry d.  Point t computes rows
  1024 t .. 1024 t + 1023 from the same rows of the pixels and the whole weight and bias blocks; the 32 row blocks tile
  the array.
-/
import proofs.«176690_j1778116460958_1_alg».proof.Proof.Gen.KernelIdeal.Frame
import proofs.«176690_j1778116460958_1_alg».proof.Proof.Spec
import proofs.«176690_j1778116460958_1_alg».proof.Proof.LibPlainDot
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

-- The TensorCore's buffer contents when the region is entered: a parameter, as in the generated frame.
variable (V : (c : Dev nD) → (b : Ref sig .tc) → Buf (Elt Ideal) ((c : Thread nD τ).loc b))

/-- The body's offsets are all zero. -/
private theorem offs_zero : (![0, 0] : Fin 2 → Nat) = fun _ => 0 := funext fun a => by fin_cases a <;> rfl

/-- The body's result at row `p`, column `d` of its block: the row of the pixel block times the column of the weights,
    plus the bias row's entry. -/
private theorem pay_apply (x0 : Vec Ideal S1024x512 .f32) (x1 : Vec Ideal S512x1536 .f32) (x2 : Vec Ideal S1x1536 .f32)
    (p : Fin 1024) (d : Fin 1536) :
    k0_pay1 x0 x1 x2 (ix2 p d) = (∑ k : Fin 512, x0 (ix2 p k) * x1 (ix2 k d)) + x2 (ix2 0 d) := by
  unfold k0_pay1
  refine (addf_apply _ _ _).trans ?_
  refine congrArg₂ HAdd.hAdd ?_ ?_
  · -- the product into the zero accumulator is the plain sum over the 512 channels
    refine (PlainDot.matmul_zero_apply 1024 512 1536 none
      (truncf FTy.bf16 (shapeCast S1024x512 x0 shapeCasts_S1024x512_S1024x512) bitsLt_bf16_f32)
      (truncf FTy.bf16 x1 bitsLt_bf16_f32) (ix2 p d)).trans ?_
    refine Finset.sum_congr rfl fun k _ => ?_
    show (shapeCast S1024x512 x0 shapeCasts_S1024x512_S1024x512) (ix2 p k) * x1 (ix2 k d) = _
    rw [shapeCast_self]
  · -- the bias row, cast to its own shape and repeated down the rows
    refine (broadcastTo_1b_ab_apply _ broadcasts_S1x1536_S1024x1536 p d).trans ?_
    exact congrFun (shapeCast_self x2 shapeCasts_S1x1536_S1x1536) _

/-- Where the four windows sit at grid point `t`: the pixel and result blocks are row block `t`, the weights and the bias
    are whole. -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The pixel block at point `t` is rows `1024 t .. 1024 t + 1023` of the pixel matrix. -/
private theorem pix_blk (c : Dev nD) (t : Fin cfg0.N) (y : S1024x512.Idx) (i : S32768x512.Idx)
    (h0 : (i 0).val = 1024 * t.val + (y 0).val) (h1 : (i 1).val = (y 1).val) :
    (iblk0 V c 0 t : Vec Ideal S1024x512 .f32) y = (V c main_v0 : S32768x512.Idx → Elt Ideal .f32) i := by
  obtain ⟨e0, e1, -⟩ := idx_facts t
  unfold iblk0
  show V c main_v0 (((cfg0.win 0).blk t).view.emb y) = V c main_v0 i
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 512 + 1 * (y 1).val = (i 1).val; omega

/-- The weight block at every point is the whole weight matrix. -/
private theorem wgt_blk (c : Dev nD) (t : Fin cfg0.N) (y i : S512x1536.Idx)
    (h0 : (i 0).val = (y 0).val) (h1 : (i 1).val = (y 1).val) :
    (iblk0 V c 1 t : Vec Ideal S512x1536 .f32) y = (V c main_arg1 : S512x1536.Idx → Elt Ideal .f32) i := by
  obtain ⟨-, -, e0, e1, -⟩ := idx_facts t
  unfold iblk0
  show V c main_arg1 (((cfg0.win 1).blk t).view.emb y) = V c main_arg1 i
  refine congrArg _ (funext fun a => Fin.ext ?_)
  match a with
  | ⟨0, _⟩ => show win0_1.index t (0 : Fin 2) * 512 + 1 * (y 0).val = (i 0).val; omega
  | ⟨1, _⟩ => show win0_1.index t (1 : Fin 2) * 1536 + 1 * (y 1).val = (i 1).val; omega

/-- The bias block at every point is the whole bias row. -/
private theorem bias_blk (c : Dev nD) (t : Fin cfg0.N) (y i : S1x1536.Idx)
    (h0 : (i 0).val = (y 0).val) (h1 : (i 1).val = (y 1).val) :
    (iblk0 V c 2 t : Vec Ideal S1x1536 .f32) y = (V c main_v1 : S1x1536.Idx → Elt Ideal .f32) i := by
  obtain ⟨-, -, -, -, e0, e1, -⟩ := idx_facts t
  unfold iblk0
  show V c main_v1 (((cfg0.win 2).blk t).view.emb y) = V c main_v1 i
  refine congrArg _ (funext fun a => Fin.ext ?_)
  match a with
  | ⟨0, _⟩ => show win0_2.index t (0 : Fin 2) * 1 + 1 * (y 0).val = (i 0).val; omega
  | ⟨1, _⟩ => show win0_2.index t (1 : Fin 2) * 1536 + 1 * (y 1).val = (i 1).val; omega

/-- What point `t` writes back is row block `t` of the projection: row `p` of the block is row `1024 t + p` of the array,
    and there the body's sum over the pixel block's row is the sum over the pixel matrix's row. -/
private theorem flushed_eq (c : Dev nD) (t : Fin cfg0.N) :
    (dat0 V c).flushed 3 t
      = ((cfg0.win 3).blk t).view.read (Elt Ideal) (Cert.Spec.projFlat (V c main_v0) (V c main_arg1) (V c main_v1)) := by
  show (cfg0.win 3).cut (grid0.coords t) ((dat0 V c).after 3 t) = _
  rw [after0_3]
  unfold out0_3
  rw [View.canon_unit_zero offs_zero]
  simp only [View.ld_unit_zero (S := S1024x512) offs_zero, View.ld_unit_zero (S := S512x1536) offs_zero,
    View.ld_unit_zero (S := S1x1536) offs_zero]
  obtain ⟨-, -, -, -, -, -, e0, e1⟩ := idx_facts t
  funext j
  obtain ⟨p, q, rfl⟩ : ∃ p q, j = ix2 p q := ⟨j 0, j 1, eq_ix2 j⟩
  show k0_pay1 (iblk0 V c 0 t) (iblk0 V c 1 t) (iblk0 V c 2 t) (ix2 p q)
    = Cert.Spec.projFlat (V c main_v0) (V c main_arg1) (V c main_v1) (((cfg0.win 3).blk t).view.emb (ix2 p q))
  refine (pay_apply _ _ _ p q).trans ?_
  -- the array index under block entry (p, q)
  have hr : ((((cfg0.win 3).blk t).view.emb (ix2 p q)) 0).val = 1024 * t.val + p.val := by
    show win0_3.index t (0 : Fin 2) * 1024 + 1 * p.val = _
    omega
  have hd : ((((cfg0.win 3).blk t).view.emb (ix2 p q)) 1).val = q.val := by
    show win0_3.index t (1 : Fin 2) * 1536 + 1 * q.val = _
    omega
  unfold Cert.Spec.projFlat
  refine congrArg₂ HAdd.hAdd (Finset.sum_congr rfl fun k _ => congrArg₂ HMul.hMul ?_ ?_) ?_
  · exact pix_blk V c t (ix2 p k) (ix2 _ k) hr rfl
  · exact wgt_blk V c t (ix2 k q) (ix2 k _) rfl hd
  · exact bias_blk V c t (ix2 0 q) (ix2 0 _) rfl hd

/-- An index of the result array is in point `t`'s block iff each coordinate is in the block's range on its axis. -/
private theorem mem_blk (t : Fin cfg0.N) (i : S32768x1536.Idx) :
    i ∈ ((cfg0.win 3).blk t).view.set ↔ ∀ a : Fin 2, win0_3.index t a * S1024x1536.size a ≤ (i a).val
      ∧ (i a).val < win0_3.index t a * S1024x1536.size a + S1024x1536.size a := by
  show i ∈ ((View.whole main_v2).slice (win0_3.rect t)).set ↔ _
  rw [View.set_slice_whole, Rect.mem_set_unit]
  exact Iff.rfl

/-- The 32 row blocks tile the result array: row `r` is in the block of point `r / 1024`. -/
private theorem cover (i : S32768x1536.Idx) :
    ∃ t : Fin cfg0.N, (cfg0.win 3).flush t = true ∧ i ∈ ((cfg0.win 3).blk t).view.set := by
  have hi0 : (i 0).val < 32768 := (i 0).isLt
  have hi1 : (i 1).val < 1536 := (i 1).isLt
  obtain ⟨t, ht⟩ : ∃ t : Fin cfg0.N, t.val = (i 0).val / 1024 :=
    ⟨⟨(i 0).val / 1024, by show (i 0).val / 1024 < grid0.N; rw [N_0]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1536 ≤ (i 1).val ∧ (i 1).val < win0_3.index t (1 : Fin 2) * 1536 + 1536
    omega

/-- The first region's result array, as a function of the arrays the region finds. -/
theorem region0 (c : Dev nD) :
    (dat0 V c).arrAt 3 cfg0.N = Cert.Spec.projFlat (V c main_v0) (V c main_arg1) (V c main_v1) :=
  (dat0 V c).arrAt_eq_of_cover 3 _ (fun t _ => flushed_eq V c t) cover

end Cert.KernelIdeal.Hand

end
-- ==== Proof.Region1Pay.lean ====
/-
  One grid point of the attention region, as arithmetic.

  The body loads three [1, 1, 4096, 64] blocks, reads each as a 4096 x 64 matrix, and stores one such block.  If the
  loaded blocks are the (n, e) slices of the queries, keys and values, the stored block is the (n, e) slice of the
  attention output of Proof/Spec.lean: the row maxima and sums run over the 64 features of the block's rows, the column
  maxima and sums over its 4096 rows, the context is the product of the transposed key weights with the values (both
  contracted on the positions), and the result the query weights times the context (contracted on the features).  A change
  of float format is the identity at the ideal values, and a product into the zero accumulator is the plain sum.
-/
import proofs.«176690_j1778116460958_1_alg».proof.Proof.Gen.KernelIdeal.Skeleton
import proofs.«176690_j1778116460958_1_alg».proof.Proof.Spec
import proofs.«176690_j1778116460958_1_alg».proof.Proof.LibPlainDot
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.ValueIdx

/-! ## The casts between a block and its matrix -/

/-- A [1, 1, 4096, 64] block read as a matrix: entry (l, j) is the block's entry (0, 0, l, j). -/
private theorem cast_in_apply (x : FVec Ideal S1x1x4096x64 .f32) (h : S1x1x4096x64.ShapeCasts S4096x64) (l : Fin 4096) (j : Fin 64) :
    shapeCast S4096x64 x h (ix2 l j) = x (ix4 0 0 l j) :=
  shapeCast_apply x h _ _ (by
    rw [Shape.rowMajor_val_four, Shape.rowMajor_val_two]
    show ((0 * 1 + 0) * 4096 + l.val) * 64 + j.val = l.val * 64 + j.val
    omega)

/-- A matrix read as a [1, 1, 4096, 64] block: entry (0, 0, l, j) is the matrix's entry (l, j). -/
private theorem cast_out_apply (x : FVec Ideal S4096x64 .f32) (h : S4096x64.ShapeCasts S1x1x4096x64) (l : Fin 4096) (j : Fin 64) :
    shapeCast S1x1x4096x64 x h (ix4 0 0 l j) = x (ix2 l j) :=
  shapeCast_apply x h _ _ (by
    rw [Shape.rowMajor_val_four, Shape.rowMajor_val_two]
    show l.val * 64 + j.val = ((0 * 1 + 0) * 4096 + l.val) * 64 + j.val
    omega)

/-! ## A per-row and a per-column value spread over the matrix -/

/-- A value per row, kept as a column and repeated along the rows: entry (l, j) is the row's value. -/
private theorem rowSpread_apply (x : FVec Ideal S4096 .f32) (hc : S4096.ShapeCasts S4096x1) (hb : S4096x1.Broadcasts S4096x64)
    (l : Fin 4096) (j : Fin 64) :
    broadcastTo S4096x64 (shapeCast S4096x1 x hc) hb (ix2 l j) = x (ix1 l) := by
  refine (broadcastTo_apply _ hb (ix2 l j) (ix2 l (0 : Fin 1)) fun a => ?_).trans ?_
  · match a with
    | ⟨0, _⟩ => rfl
    | ⟨1, _⟩ => rfl
  · exact shapeCast_apply x hc _ _ (by
      rw [Shape.rowMajor_val_one, Shape.rowMajor_val_two]
      show l.val = l.val * 1 + 0
      omega)

/-- A value per column, kept as a row and repeated down the columns: entry (l, j) is the column's value. -/
private theorem colSpread_apply (x : FVec Ideal S64 .f32) (hc : S64.ShapeCasts S1x64) (hb : S1x64.Broadcasts S4096x64)
    (l : Fin 4096) (j : Fin 64) :
    broadcastTo S4096x64 (shapeCast S1x64 x hc) hb (ix2 l j) = x (ix1 j) :=
  (broadcastTo_1b_ab_apply _ hb l j).trans (shapeCast_a_1a_apply x hc 0 j)

/-! ## The reductions along the features and along the positions -/

/-- The row of the matrix over the reduced index: the inserted coordinate is the column. -/
private theorem lift_row (h : S4096x64.Reduces [1] S4096) (l : Fin 4096) (j : Fin 64) : h.lift (ix1 l) j = ix2 l j :=
  funext fun a => Fin.ext (by match a with | ⟨0, _⟩ => rfl | ⟨1, _⟩ => rfl)

/-- The column of the matrix over the reduced index: the inserted coordinate is the row. -/
private theorem lift_col (h : S4096x64.Reduces [0] S64) (j : Fin 64) (l : Fin 4096) : h.lift (ix1 j) l = ix2 l j :=
  funext fun a => Fin.ext (by match a with | ⟨0, _⟩ => rfl | ⟨1, _⟩ => rfl)

/-- The maximum along the features, at row l: the fold of max from minus infinity over the row's 64 entries. -/
private theorem rowMaxRed_apply (src : FVec Ideal S4096x64 .f32) (h : S4096x64.Reduces [1] S4096) (hφ : FKind.Formats .f32)
    (hacc : (0xFF800000#32 : BitVec 32) = FKind.neutral .maximumf .f32 hφ) (l : Fin 4096) :
    multiReduction (F := Ideal) .maximumf [1] S4096 src 0xFF800000#32 h hφ hacc (ix1 l)
      = (Finset.univ : Finset (Fin 64)).fold max Cert.Spec.negInf fun j => src (ix2 l j) := by
  refine (Ideal.multiReduction_maximumf_single src _ h hφ hacc (ix1 l)).trans ?_
  show (Finset.univ : Finset (Fin 64)).fold max Cert.Spec.negInf (src ∘ h.lift (ix1 l)) = _
  exact congrArg (fun f => (Finset.univ : Finset (Fin 64)).fold max Cert.Spec.negInf f)
    (funext fun j => congrArg src (lift_row h l j))

/-- The sum along the features, at row l. -/
private theorem rowSumRed_apply (src : FVec Ideal S4096x64 .f32) (h : S4096x64.Reduces [1] S4096) (hφ : FKind.Formats .f32)
    (hacc : (0x00000000#32 : BitVec 32) = FKind.neutral .add .f32 hφ) (l : Fin 4096) :
    multiReduction (F := Ideal) .add [1] S4096 src 0x00000000#32 h hφ hacc (ix1 l) = ∑ j : Fin 64, src (ix2 l j) := by
  refine (Ideal.multiReduction_add_single src _ h hφ hacc (ix1 l)).trans ?_
  show ∑ j : Fin 64, src (h.lift (ix1 l) j) = _
  exact Finset.sum_congr rfl fun j _ => congrArg src (lift_row h l j)

/-- The maximum along the positions, at column j: the fold of max from minus infinity over the column's 4096 entries. -/
private theorem colMaxRed_apply (src : FVec Ideal S4096x64 .f32) (h : S4096x64.Reduces [0] S64) (hφ : FKind.Formats .f32)
    (hacc : (0xFF800000#32 : BitVec 32) = FKind.neutral .maximumf .f32 hφ) (j : Fin 64) :
    multiReduction (F := Ideal) .maximumf [0] S64 src 0xFF800000#32 h hφ hacc (ix1 j)
      = (Finset.univ : Finset (Fin 4096)).fold max Cert.Spec.negInf fun l => src (ix2 l j) := by
  refine (Ideal.multiReduction_maximumf_single src _ h hφ hacc (ix1 j)).trans ?_
  show (Finset.univ : Finset (Fin 4096)).fold max Cert.Spec.negInf (src ∘ h.lift (ix1 j)) = _
  exact congrArg (fun f => (Finset.univ : Finset (Fin 4096)).fold max Cert.Spec.negInf f)
    (funext fun l => congrArg src (lift_col h j l))

/-- The sum along the positions, at column j. -/
private theorem colSumRed_apply (src : FVec Ideal S4096x64 .f32) (h : S4096x64.Reduces [0] S64) (hφ : FKind.Formats .f32)
    (hacc : (0x00000000#32 : BitVec 32) = FKind.neutral .add .f32 hφ) (j : Fin 64) :
    multiReduction (F := Ideal) .add [0] S64 src 0x00000000#32 h hφ hacc (ix1 j) = ∑ l : Fin 4096, src (ix2 l j) := by
  refine (Ideal.multiReduction_add_single src _ h hφ hacc (ix1 j)).trans ?_
  show ∑ l : Fin 4096, src (h.lift (ix1 j) l) = _
  exact Finset.sum_congr rfl fun l _ => congrArg src (lift_col h j l)

/-! ## The two normalisations as the body computes them -/

/-- The row maxima: the larger of minus infinity and the maximum along the features. -/
private def rowMaxV (a : FVec Ideal S4096x64 .f32) : FVec Ideal S4096 .f32 :=
  maximumf (broadcast S4096 (Scalar.ofBits (F := Ideal) .f32 0xFF800000#32))
    (multiReduction .maximumf [1] S4096 a 0xFF800000#32 reduces_S4096x64_S4096 (.inl rfl) rfl)

/-- The exponential of each entry less its row's maximum. -/
private def rowExpV (a : FVec Ideal S4096x64 .f32) : FVec Ideal S4096x64 .f32 :=
  exp (subf a (broadcastTo S4096x64 (shapeCast S4096x1 (rowMaxV a) shapeCasts_S4096_S4096x1) broadcasts_S4096x1_S4096x64))

/-- Each such exponential divided by the sum of its row's. -/
private def rowSoftV (a : FVec Ideal S4096x64 .f32) : FVec Ideal S4096x64 .f32 :=
  divf (rowExpV a) (broadcastTo S4096x64 (shapeCast S4096x1
    (multiReduction .add [1] S4096 (rowExpV a) 0x00000000#32 reduces_S4096x64_S4096 (.inl rfl) rfl)
    shapeCasts_S4096_S4096x1) broadcasts_S4096x1_S4096x64)

/-- The column maxima: the larger of minus infinity and the maximum along the positions. -/
private def colMaxV (a : FVec Ideal S4096x64 .f32) : FVec Ideal S64 .f32 :=
  maximumf (broadcast S64 (Scalar.ofBits (F := Ideal) .f32 0xFF800000#32))
    (multiReduction .maximumf [0] S64 a 0xFF800000#32 reduces_S4096x64_S64 (.inl rfl) rfl)

/-- The exponential of each entry less its column's maximum. -/
private def colExpV (a : FVec Ideal S4096x64 .f32) : FVec Ideal S4096x64 .f32 :=
  exp (subf a (broadcastTo S4096x64 (shapeCast S1x64 (colMaxV a) shapeCasts_S64_S1x64) broadcasts_S1x64_S4096x64))

/-- Each such exponential divided by the sum of its column's. -/
private def colSoftV (a : FVec Ideal S4096x64 .f32) : FVec Ideal S4096x64 .f32 :=
  divf (colExpV a) (broadcastTo S4096x64 (shapeCast S1x64
    (multiReduction .add [0] S64 (colExpV a) 0x00000000#32 reduces_S4096x64_S64 (.inl rfl) rfl)
    shapeCasts_S64_S1x64) broadcasts_S1x64_S4096x64)

section Rows
variable (q : FVec Ideal Cert.Spec.Sh .f32) (n e : Fin 8) (a : FVec Ideal S4096x64 .f32)
  (ha : ∀ (l : Fin 4096) (j : Fin 64), a (ix2 l j) = q (ix4 n e l j))
include ha

/-- On the (n, e) slice of the queries the row maxima are the specification's. -/
private theorem rowMaxV_eq (l : Fin 4096) : rowMaxV a (ix1 l) = Cert.Spec.rowMax q n e l :=
  (congrArg (max Cert.Spec.negInf) (rowMaxRed_apply a _ _ _ l)).trans
    (congrArg (fun f => max Cert.Spec.negInf ((Finset.univ : Finset (Fin 64)).fold max Cert.Spec.negInf f))
      (funext fun j => ha l j))

/-- … the exponentials are the specification's. -/
private theorem rowExpV_eq (l : Fin 4096) (j : Fin 64) : rowExpV a (ix2 l j) = Cert.Spec.rowExp q n e l j := by
  show Ideal.exp (a (ix2 l j) - broadcastTo S4096x64 (shapeCast S4096x1 (rowMaxV a) shapeCasts_S4096_S4096x1)
    broadcasts_S4096x1_S4096x64 (ix2 l j)) = Ideal.exp (q (ix4 n e l j) - Cert.Spec.rowMax q n e l)
  rw [rowSpread_apply, rowMaxV_eq q n e a ha l, ha l j]

/-- … and the weights are the specification's. -/
private theorem rowSoftV_eq (l : Fin 4096) (j : Fin 64) : rowSoftV a (ix2 l j) = Cert.Spec.rowSoft q n e l j := by
  show Ideal.div (rowExpV a (ix2 l j)) (broadcastTo S4096x64 (shapeCast S4096x1
    (multiReduction .add [1] S4096 (rowExpV a) 0x00000000#32 reduces_S4096x64_S4096 (.inl rfl) rfl)
    shapeCasts_S4096_S4096x1) broadcasts_S4096x1_S4096x64 (ix2 l j))
    = Ideal.div (Cert.Spec.rowExp q n e l j) (∑ j' : Fin 64, Cert.Spec.rowExp q n e l j')
  exact congrArg₂ Ideal.div (rowExpV_eq q n e a ha l j)
    (((rowSpread_apply _ _ _ l j).trans (rowSumRed_apply (rowExpV a) _ _ _ l)).trans
      (Finset.sum_congr rfl fun j' _ => rowExpV_eq q n e a ha l j'))

end Rows

section Cols
variable (k : FVec Ideal Cert.Spec.Sh .f32) (n e : Fin 8) (a : FVec Ideal S4096x64 .f32)
  (ha : ∀ (l : Fin 4096) (j : Fin 64), a (ix2 l j) = k (ix4 n e l j))
include ha

/-- On the (n, e) slice of the keys the column maxima are the specification's. -/
private theorem colMaxV_eq (j : Fin 64) : colMaxV a (ix1 j) = Cert.Spec.colMax k n e j :=
  (congrArg (max Cert.Spec.negInf) (colMaxRed_apply a _ _ _ j)).trans
    (congrArg (fun f => max Cert.Spec.negInf ((Finset.univ : Finset (Fin 4096)).fold max Cert.Spec.negInf f))
      (funext fun l => ha l j))

/-- … the exponentials are the specification's. -/
private theorem colExpV_eq (l : Fin 4096) (j : Fin 64) : colExpV a (ix2 l j) = Cert.Spec.colExp k n e l j := by
  show Ideal.exp (a (ix2 l j) - broadcastTo S4096x64 (shapeCast S1x64 (colMaxV a) shapeCasts_S64_S1x64)
    broadcasts_S1x64_S4096x64 (ix2 l j)) = Ideal.exp (k (ix4 n e l j) - Cert.Spec.colMax k n e j)
  rw [colSpread_apply, colMaxV_eq k n e a ha j, ha l j]

/-- … and the weights are the specification's. -/
private theorem colSoftV_eq (l : Fin 4096) (j : Fin 64) : colSoftV a (ix2 l j) = Cert.Spec.colSoft k n e l j := by
  show Ideal.div (colExpV a (ix2 l j)) (broadcastTo S4096x64 (shapeCast S1x64
    (multiReduction .add [0] S64 (colExpV a) 0x00000000#32 reduces_S4096x64_S64 (.inl rfl) rfl)
    shapeCasts_S64_S1x64) broadcasts_S1x64_S4096x64 (ix2 l j))
    = Ideal.div (Cert.Spec.colExp k n e l j) (∑ l' : Fin 4096, Cert.Spec.colExp k n e l' j)
  exact congrArg₂ Ideal.div (colExpV_eq k n e a ha l j)
    (((colSpread_apply _ _ _ l j).trans (colSumRed_apply (colExpV a) _ _ _ j)).trans
      (Finset.sum_congr rfl fun l' _ => colExpV_eq k n e a ha l' j))

end Cols

/-! ## The product contracted on the positions of both operands

The dimension numbers contract axis 0 of the left operand with axis 0 of the right and keep axis 1 of each, so at the
output index (j, d) and the contraction coordinate k the operands are read at (k, j) and (k, d). -/

/-- The left operand's row is the contraction coordinate. -/
private theorem ctx_lhs_row (i : S64x64.Idx) (c : dot_S4096x64_S4096x64_S64x64_0_0_1_1_n_n.contr.Idx) :
    (dot_S4096x64_S4096x64_S64x64_0_0_1_1_n_n.lhsIdx i c 0).val = (c ⟨0, Nat.one_pos⟩).val :=
  dot_S4096x64_S4096x64_S64x64_0_0_1_1_n_n.lhsIdx_val_of_single rfl i c

/-- The left operand's column is the output's row. -/
private theorem ctx_lhs_col (i : S64x64.Idx) (c : dot_S4096x64_S4096x64_S64x64_0_0_1_1_n_n.contr.Idx) :
    (dot_S4096x64_S4096x64_S64x64_0_0_1_1_n_n.lhsIdx i c 1).val = (i 0).val := by
  unfold DotDims.lhsIdx
  rw [dif_neg (show ¬(1 : Fin S4096x64.rank) ∈ dot_S4096x64_S4096x64_S64x64_0_0_1_1_n_n.lhsBatch from List.not_mem_nil),
    dif_pos (show (1 : Fin S4096x64.rank) ∈ dot_S4096x64_S4096x64_S64x64_0_0_1_1_n_n.lhsNonContracting from
      List.mem_singleton.mpr rfl)]
  rfl

/-- The right operand's row is the contraction coordinate. -/
private theorem ctx_rhs_row (i : S64x64.Idx) (c : dot_S4096x64_S4096x64_S64x64_0_0_1_1_n_n.contr.Idx) :
    (dot_S4096x64_S4096x64_S64x64_0_0_1_1_n_n.rhsIdx i c 0).val = (c ⟨0, Nat.one_pos⟩).val :=
  dot_S4096x64_S4096x64_S64x64_0_0_1_1_n_n.rhsIdx_val_of_single rfl i c

/-- The right operand's column is the output's column. -/
private theorem ctx_rhs_col (i : S64x64.Idx) (c : dot_S4096x64_S4096x64_S64x64_0_0_1_1_n_n.contr.Idx) :
    (dot_S4096x64_S4096x64_S64x64_0_0_1_1_n_n.rhsIdx i c 1).val = (i 1).val := by
  unfold DotDims.rhsIdx
  rw [dif_neg (show ¬(1 : Fin S4096x64.rank) ∈ dot_S4096x64_S4096x64_S64x64_0_0_1_1_n_n.rhsBatch from List.not_mem_nil),
    dif_pos (show (1 : Fin S4096x64.rank) ∈ dot_S4096x64_S4096x64_S64x64_0_0_1_1_n_n.rhsNonContracting from
      List.mem_singleton.mpr rfl)]
  rfl

/-- The contraction sum at (j, d), over the 4096 positions. -/
private theorem ctx_sum_contr (lh rh : S4096x64.Idx → EReal) (j d : Fin 64) :
    ∑ c : dot_S4096x64_S4096x64_S64x64_0_0_1_1_n_n.contr.Idx,
        lh (dot_S4096x64_S4096x64_S64x64_0_0_1_1_n_n.lhsIdx (ix2 j d) c)
          * rh (dot_S4096x64_S4096x64_S64x64_0_0_1_1_n_n.rhsIdx (ix2 j d) c)
      = ∑ p : Fin 4096, lh (ix2 p j) * rh (ix2 p d) := by
  rw [← Equiv.sum_comp (contrEquiv1 dot_S4096x64_S4096x64_S64x64_0_0_1_1_n_n 4096 rfl rfl).symm]
  refine Finset.sum_congr rfl fun p _ => ?_
  have hp := contrEquiv1_symm_val dot_S4096x64_S4096x64_S64x64_0_0_1_1_n_n 4096 rfl rfl p
  have el : dot_S4096x64_S4096x64_S64x64_0_0_1_1_n_n.lhsIdx (ix2 j d)
      ((contrEquiv1 dot_S4096x64_S4096x64_S64x64_0_0_1_1_n_n 4096 rfl rfl).symm p) = ix2 p j :=
    funext fun a => Fin.ext (by
      match a with
      | ⟨0, _⟩ => exact (ctx_lhs_row _ _).trans hp
      | ⟨1, _⟩ => exact ctx_lhs_col _ _)
  have er : dot_S4096x64_S4096x64_S64x64_0_0_1_1_n_n.rhsIdx (ix2 j d)
      ((contrEquiv1 dot_S4096x64_S4096x64_S64x64_0_0_1_1_n_n 4096 rfl rfl).symm p) = ix2 p d :=
    funext fun a => Fin.ext (by
      match a with
      | ⟨0, _⟩ => exact (ctx_rhs_row _ _).trans hp
      | ⟨1, _⟩ => exact ctx_rhs_col _ _)
  rw [el, er]

/-- The product of the transposed left operand with the right, into the zero accumulator, at (j, d). -/
private theorem ctxMatmul_apply (lh rh : FVec Ideal S4096x64 .bf16) (j d : Fin 64) :
    matmul dot_S4096x64_S4096x64_S64x64_0_0_1_1_n_n none lh rh (constant S64x64 .f32 0x00000000#32) (ix2 j d)
      = ∑ p : Fin 4096, lh (ix2 p j) * rh (ix2 p d) :=
  (Ideal.matmul_constant_zero_apply dot_S4096x64_S4096x64_S64x64_0_0_1_1_n_n none lh rh (ix2 j d)).trans
    (ctx_sum_contr lh rh j d)

/-- The plain product into the zero accumulator, at (l, d): the row of the left times the column of the right. -/
private theorem outMatmul_apply (lh : FVec Ideal S4096x64 .bf16) (rh : FVec Ideal S64x64 .bf16) (l : Fin 4096) (d : Fin 64) :
    matmul dot_S4096x64_S64x64_S4096x64_1_0_0_1_n_n none lh rh (constant S4096x64 .f32 0x00000000#32) (ix2 l d)
      = ∑ j : Fin 64, lh (ix2 l j) * rh (ix2 j d) :=
  PlainDot.matmul_zero_apply 4096 64 64 none lh rh (ix2 l d)

/-! ## The body's value, and the block it stores -/

/-- The body's value is the query weights times the context, the context being the key weights, contracted on the
    positions, against the values; every change of float format is the identity at the ideal values. -/
private theorem pay2_eq (x0 x1 x2 : Vec Ideal S1x1x4096x64 .f32) :
    k1_pay2 x0 x1 x2 = matmul dot_S4096x64_S64x64_S4096x64_1_0_0_1_n_n none
      (truncf .bf16 (rowSoftV (shapeCast S4096x64 x0 shapeCasts_S1x1x4096x64_S4096x64)) bitsLt_bf16_f32)
      (truncf .bf16 (matmul dot_S4096x64_S4096x64_S64x64_0_0_1_1_n_n none
          (truncf .bf16 (colSoftV (shapeCast S4096x64 x1 shapeCasts_S1x1x4096x64_S4096x64)) bitsLt_bf16_f32)
          (truncf .bf16 (shapeCast S4096x64 x2 shapeCasts_S1x1x4096x64_S4096x64) bitsLt_bf16_f32)
          (constant S64x64 .f32 0x00000000#32)) bitsLt_bf16_f32)
      (constant S4096x64 .f32 0x00000000#32) := rfl

/-- One point's stored block, entry (l, d), is the attention output at (n, e, l, d). -/
theorem pay1_apply (q k v : FVec Ideal Cert.Spec.Sh .f32) (n e : Fin 8) (x0 x1 x2 : Vec Ideal S1x1x4096x64 .f32)
    (h0 : ∀ (l : Fin 4096) (j : Fin 64), x0 (ix4 0 0 l j) = q (ix4 n e l j))
    (h1 : ∀ (l : Fin 4096) (j : Fin 64), x1 (ix4 0 0 l j) = k (ix4 n e l j))
    (h2 : ∀ (l : Fin 4096) (j : Fin 64), x2 (ix4 0 0 l j) = v (ix4 n e l j))
    (l : Fin 4096) (d : Fin 64) :
    k1_pay1 (k1_pay2 x0 x1 x2) (ix4 0 0 l d) = Cert.Spec.attnSpec q k v (ix4 n e l d) := by
  -- the three blocks read as matrices are the (n, e) slices of the queries, keys and values
  have ha0 : ∀ (l : Fin 4096) (j : Fin 64),
      shapeCast S4096x64 x0 shapeCasts_S1x1x4096x64_S4096x64 (ix2 l j) = q (ix4 n e l j) :=
    fun l j => (cast_in_apply x0 _ l j).trans (h0 l j)
  have ha1 : ∀ (l : Fin 4096) (j : Fin 64),
      shapeCast S4096x64 x1 shapeCasts_S1x1x4096x64_S4096x64 (ix2 l j) = k (ix4 n e l j) :=
    fun l j => (cast_in_apply x1 _ l j).trans (h1 l j)
  have ha2 : ∀ (l : Fin 4096) (j : Fin 64),
      shapeCast S4096x64 x2 shapeCasts_S1x1x4096x64_S4096x64 (ix2 l j) = v (ix4 n e l j) :=
    fun l j => (cast_in_apply x2 _ l j).trans (h2 l j)
  -- the first product is the context matrix
  have hctx : ∀ j : Fin 64,
      matmul dot_S4096x64_S4096x64_S64x64_0_0_1_1_n_n none
          (truncf .bf16 (colSoftV (shapeCast S4096x64 x1 shapeCasts_S1x1x4096x64_S4096x64)) bitsLt_bf16_f32)
          (truncf .bf16 (shapeCast S4096x64 x2 shapeCasts_S1x1x4096x64_S4096x64) bitsLt_bf16_f32)
          (constant S64x64 .f32 0x00000000#32) (ix2 j d) = Cert.Spec.context k v n e j d :=
    fun j => (ctxMatmul_apply _ _ j d).trans (Finset.sum_congr rfl fun p _ =>
      congrArg₂ (fun s t : EReal => s * t) (colSoftV_eq k n e _ ha1 p j) (ha2 p d))
  show shapeCast S1x1x4096x64 (k1_pay2 x0 x1 x2) shapeCasts_S4096x64_S1x1x4096x64 (ix4 0 0 l d)
    = ∑ j : Fin 64, Cert.Spec.rowSoft q n e l j * Cert.Spec.context k v n e j d
  refine (cast_out_apply _ _ l d).trans ?_
  rw [pay2_eq]
  refine (outMatmul_apply _ _ l d).trans ?_
  exact Finset.sum_congr rfl fun j _ =>
    congrArg₂ (fun s t : EReal => s * t) (rowSoftV_eq q n e _ ha0 l j) (hctx j)

end Cert.KernelIdeal.Hand

end
-- ==== Proof.Region1.lean ====
/-
  Region 1, linear attention: after its 8 x 8 grid points the result array [8, 8, 4096, 64] holds the attention output of
  Proof/Spec.lean.  Point (n, e) reads block (n, e) of the queries, keys and values, each a [4096, 64] matrix, normalises
  the queries along the features and the keys along the positions, forms the 64 x 64 context and applies the query weights
  to it; the 64 blocks tile the array.
-/
import proofs.«176690_j1778116460958_1_alg».proof.Proof.Gen.KernelIdeal.Frame
import proofs.«176690_j1778116460958_1_alg».proof.Proof.Spec
import proofs.«176690_j1778116460958_1_alg».proof.Proof.Region1Pay
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

-- The TensorCore's buffer contents when the region is entered: a parameter, as in the generated frame.
variable (V : (c : Dev nD) → (b : Ref sig .tc) → Buf (Elt Ideal) ((c : Thread nD τ).loc b))

/-! ## The index maps, over the 64 points -/

/-- The offsets of an access to a whole block are all zero. -/
private theorem hz4 : (![0, 0, 0, 0] : Fin 4 → Nat) = fun _ => 0 := funext fun a => by fin_cases a <;> rfl

/-- All four windows have block index (n, e, 0, 0) at the point with coordinates (n, e). -/
private theorem idx_facts1 : ∀ t : Fin cfg1.N,
    (win1_0.index t (0 : Fin 4) = (grid1.coords t 0).val ∧ win1_0.index t (1 : Fin 4) = (grid1.coords t 1).val
      ∧ win1_0.index t (2 : Fin 4) = 0 ∧ win1_0.index t (3 : Fin 4) = 0)
    ∧ (win1_1.index t (0 : Fin 4) = (grid1.coords t 0).val ∧ win1_1.index t (1 : Fin 4) = (grid1.coords t 1).val
      ∧ win1_1.index t (2 : Fin 4) = 0 ∧ win1_1.index t (3 : Fin 4) = 0)
    ∧ (win1_2.index t (0 : Fin 4) = (grid1.coords t 0).val ∧ win1_2.index t (1 : Fin 4) = (grid1.coords t 1).val
      ∧ win1_2.index t (2 : Fin 4) = 0 ∧ win1_2.index t (3 : Fin 4) = 0)
    ∧ (win1_3.index t (0 : Fin 4) = (grid1.coords t 0).val ∧ win1_3.index t (1 : Fin 4) = (grid1.coords t 1).val
      ∧ win1_3.index t (2 : Fin 4) = 0 ∧ win1_3.index t (3 : Fin 4) = 0) :=
  (by decide +kernel : ∀ t : Fin grid1.N, _)

/-- Every (image, head) pair is some point's block index in the result window. -/
private theorem idx_onto1 : ∀ (q0 : Fin 8) (q1 : Fin 8), ∃ t : Fin cfg1.N, win1_3.index t = ![q0.val, q1.val, 0, 0] :=
  (by decide +kernel : ∀ (q0 : Fin 8) (q1 : Fin 8), ∃ t : Fin grid1.N, win1_3.index t = ![q0.val, q1.val, 0, 0])

/-! ## The three input blocks at a point, read off their arrays -/

/-- Entry (l, j) of the queries' block at point `t` is entry (n, e, l, j) of the queries' array, (n, e) the point's
    coordinates: on axes 0 and 1 the block has extent 1 and block index n, e; on axes 2 and 3 it is the whole axis. -/
private theorem iblk1_0_apply (c : Dev nD) (t : Fin cfg1.N) (l : Fin 4096) (j : Fin 64) :
    (iblk1 V c 0 t : Vec Ideal S1x1x4096x64 .f32) (ix4 0 0 l j)
      = (V c main_v8 : FVec Ideal Cert.Spec.Sh .f32) (ix4 (grid1.coords t 0) (grid1.coords t 1) l j) := by
  obtain ⟨e0, e1, e2, e3⟩ := (idx_facts1 t).1
  unfold iblk1
  rw [View.read_apply]
  show V c main_v8 _ = V c main_v8 _
  congr 1
  funext a
  apply Fin.ext
  match a with
  | ⟨0, _⟩ => show win1_0.index t (0 : Fin 4) * 1 + 1 * 0 = (grid1.coords t 0).val; omega
  | ⟨1, _⟩ => show win1_0.index t (1 : Fin 4) * 1 + 1 * 0 = (grid1.coords t 1).val; omega
  | ⟨2, _⟩ => show win1_0.index t (2 : Fin 4) * 4096 + 1 * l.val = l.val; omega
  | ⟨3, _⟩ => show win1_0.index t (3 : Fin 4) * 64 + 1 * j.val = j.val; omega

/-- Entry (l, j) of the keys' block at point `t` is entry (n, e, l, j) of the keys' array, (n, e) the point's
    coordinates: on axes 0 and 1 the block has extent 1 and block index n, e; on axes 2 and 3 it is the whole axis. -/
private theorem iblk1_1_apply (c : Dev nD) (t : Fin cfg1.N) (l : Fin 4096) (j : Fin 64) :
    (iblk1 V c 1 t : Vec Ideal S1x1x4096x64 .f32) (ix4 0 0 l j)
      = (V c main_v11 : FVec Ideal Cert.Spec.Sh .f32) (ix4 (grid1.coords t 0) (grid1.coords t 1) l j) := by
  obtain ⟨e0, e1, e2, e3⟩ := (idx_facts1 t).2.1
  unfold iblk1
  rw [View.read_apply]
  show V c main_v11 _ = V c main_v11 _
  congr 1
  funext a
  apply Fin.ext
  match a with
  | ⟨0, _⟩ => show win1_1.index t (0 : Fin 4) * 1 + 1 * 0 = (grid1.coords t 0).val; omega
  | ⟨1, _⟩ => show win1_1.index t (1 : Fin 4) * 1 + 1 * 0 = (grid1.coords t 1).val; omega
  | ⟨2, _⟩ => show win1_1.index t (2 : Fin 4) * 4096 + 1 * l.val = l.val; omega
  | ⟨3, _⟩ => show win1_1.index t (3 : Fin 4) * 64 + 1 * j.val = j.val; omega

/-- Entry (l, j) of the values' block at point `t` is entry (n, e, l, j) of the values' array, (n, e) the point's
    coordinates: on axes 0 and 1 the block has extent 1 and block index n, e; on axes 2 and 3 it is the whole axis. -/
private theorem iblk1_2_apply (c : Dev nD) (t : Fin cfg1.N) (l : Fin 4096) (j : Fin 64) :
    (iblk1 V c 2 t : Vec Ideal S1x1x4096x64 .f32) (ix4 0 0 l j)
      = (V c main_v14 : FVec Ideal Cert.Spec.Sh .f32) (ix4 (grid1.coords t 0) (grid1.coords t 1) l j) := by
  obtain ⟨e0, e1, e2, e3⟩ := (idx_facts1 t).2.2.1
  unfold iblk1
  rw [View.read_apply]
  show V c main_v14 _ = V c main_v14 _
  congr 1
  funext a
  apply Fin.ext
  match a with
  | ⟨0, _⟩ => show win1_2.index t (0 : Fin 4) * 1 + 1 * 0 = (grid1.coords t 0).val; omega
  | ⟨1, _⟩ => show win1_2.index t (1 : Fin 4) * 1 + 1 * 0 = (grid1.coords t 1).val; omega
  | ⟨2, _⟩ => show win1_2.index t (2 : Fin 4) * 4096 + 1 * l.val = l.val; omega
  | ⟨3, _⟩ => show win1_2.index t (3 : Fin 4) * 64 + 1 * j.val = j.val; omega

/-! ## What a point writes back -/

/-- The stored block at any of its indices: its first two coordinates are 0 (the block has extent 1 there), so the
    entry is the attention output at (n, e) and the index's last two coordinates. -/
private theorem pay1_blk (q k v : FVec Ideal Cert.Spec.Sh .f32) (n e : Fin 8) (x0 x1 x2 : Vec Ideal S1x1x4096x64 .f32)
    (h0 : ∀ (l : Fin 4096) (j : Fin 64), x0 (ix4 0 0 l j) = q (ix4 n e l j))
    (h1 : ∀ (l : Fin 4096) (j : Fin 64), x1 (ix4 0 0 l j) = k (ix4 n e l j))
    (h2 : ∀ (l : Fin 4096) (j : Fin 64), x2 (ix4 0 0 l j) = v (ix4 n e l j))
    (y : S1x1x4096x64.Idx) :
    k1_pay1 (k1_pay2 x0 x1 x2) y = Cert.Spec.attnSpec q k v (ix4 n e (y 2) (y 3)) := by
  have hy : y = ix4 0 0 (y 2) (y 3) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
    | ⟨3, _⟩ => rfl
  refine (congrArg (k1_pay1 (k1_pay2 x0 x1 x2)) hy).trans ?_
  exact pay1_apply q k v n e x0 x1 x2 h0 h1 h2 (y 2) (y 3)

/-- Point `t` writes back block `t` of the attention output of the arrays the region finds: the body's one store fills
    its whole buffer with the payload of the three loaded blocks, those are the (n, e) slices of the queries, keys and
    values, and block `t` of the result array sits at (n, e, 0, 0) with extents (1, 1, 4096, 64). -/
private theorem flushed1_eq (c : Dev nD) (t : Fin cfg1.N) :
    (dat1 V c).flushed 3 t = ((cfg1.win 3).blk t).view.read (Elt Ideal)
      (Cert.Spec.attnSpec (V c main_v8) (V c main_v11) (V c main_v14)) := by
  show (cfg1.win 3).cut (grid1.coords t) ((dat1 V c).after 3 t) = _
  rw [after1_3]
  unfold out1_3
  rw [View.canon_unit_zero hz4]
  simp only [View.ld_unit_zero (S := S1x1x4096x64) hz4]
  funext y
  obtain ⟨e0, e1, e2, e3⟩ := (idx_facts1 t).2.2.2
  show k1_pay1 (k1_pay2 (iblk1 V c 0 t) (iblk1 V c 1 t) (iblk1 V c 2 t)) ((win1 3).xinj (grid1.coords t) y)
    = Cert.Spec.attnSpec (V c main_v8) (V c main_v11) (V c main_v14) (((cfg1.win 3).blk t).view.emb y)
  refine (pay1_blk (V c main_v8) (V c main_v11) (V c main_v14) (grid1.coords t 0) (grid1.coords t 1) _ _ _
    (iblk1_0_apply V c t) (iblk1_1_apply V c t) (iblk1_2_apply V c t) _).trans ?_
  refine congrArg (Cert.Spec.attnSpec (V c main_v8) (V c main_v11) (V c main_v14)) ?_
  funext a
  apply Fin.ext
  match a with
  | ⟨0, _⟩ => show (grid1.coords t 0).val = win1_3.index t (0 : Fin 4) * 1 + 1 * (y 0).val; have hy : (y 0).val < 1 := (y 0).isLt; omega
  | ⟨1, _⟩ => show (grid1.coords t 1).val = win1_3.index t (1 : Fin 4) * 1 + 1 * (y 1).val; have hy : (y 1).val < 1 := (y 1).isLt; omega
  | ⟨2, _⟩ => show (y 2).val = win1_3.index t (2 : Fin 4) * 4096 + 1 * (y 2).val; omega
  | ⟨3, _⟩ => show (y 3).val = win1_3.index t (3 : Fin 4) * 64 + 1 * (y 3).val; omega

/-! ## The blocks tile the array -/

/-- An index of the result array is in point `t`'s block iff each coordinate is in the block's range on its axis. -/
private theorem mem_blk1 (t : Fin cfg1.N) (i : S8x8x4096x64.Idx) :
    i ∈ ((cfg1.win 3).blk t).view.set ↔ ∀ a : Fin 4, win1_3.index t a * S1x1x4096x64.size a ≤ (i a).val
      ∧ (i a).val < win1_3.index t a * S1x1x4096x64.size a + S1x1x4096x64.size a := by
  show i ∈ ((View.whole main_v15).slice (win1_3.rect t)).set ↔ _
  rw [View.set_slice_whole, Rect.mem_set_unit]
  exact Iff.rfl

/-- Index (n, e, l, d) lies in the block of the point whose block index is (n, e, 0, 0). -/
private theorem cover1 (i : S8x8x4096x64.Idx) :
    ∃ t : Fin cfg1.N, (cfg1.win 3).flush t = true ∧ i ∈ ((cfg1.win 3).blk t).view.set := by
  have hi0 : (i 0).val < 8 := (i 0).isLt
  have hi1 : (i 1).val < 8 := (i 1).isLt
  have hi2 : (i 2).val < 4096 := (i 2).isLt
  have hi3 : (i 3).val < 64 := (i 3).isLt
  obtain ⟨t, ht⟩ := idx_onto1 ⟨(i 0).val, hi0⟩ ⟨(i 1).val, hi1⟩
  have q0 : win1_3.index t (0 : Fin 4) = (i 0).val := congrFun ht 0
  have q1 : win1_3.index t (1 : Fin 4) = (i 1).val := congrFun ht 1
  have q2 : win1_3.index t (2 : Fin 4) = 0 := congrFun ht 2
  have q3 : win1_3.index t (3 : Fin 4) = 0 := congrFun ht 3
  refine ⟨t, flush1_3 t, ?_⟩
  rw [mem_blk1]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 4096 ≤ (i 2).val ∧ (i 2).val < win1_3.index t (2 : Fin 4) * 4096 + 4096; omega
  | ⟨3, _⟩ => show win1_3.index t (3 : Fin 4) * 64 ≤ (i 3).val ∧ (i 3).val < win1_3.index t (3 : Fin 4) * 64 + 64; omega

/-! ## The array after the region -/

/-- The attention region's result array, as a function of the arrays the region finds. -/
theorem region1 (c : Dev nD) :
    (dat1 V c).arrAt 3 cfg1.N = Cert.Spec.attnSpec (V c main_v8) (V c main_v11) (V c main_v14) :=
  (dat1 V c).arrAt_eq_of_cover 3 (Cert.Spec.attnSpec (V c main_v8) (V c main_v11) (V c main_v14))
    (fun t _ => flushed1_eq V c t) cover1

end Cert.KernelIdeal.Hand

end
-- ==== Proof.Region2.lean ====
/-
  Region 2, the output projection: after its 32 grid points the result array [32768, 512] holds, at row r and channel c,
  (input + (row r of the attention output times column c of the weights + bias c) * gate c) + shift c, the gate
  1 / (1 + exp (-gamma c)).  Point t computes rows 1024 t .. 1024 t + 1023; the 32 row blocks tile the array.
-/
import proofs.«176690_j1778116460958_1_alg».proof.Proof.Gen.KernelIdeal.Frame
import proofs.«176690_j1778116460958_1_alg».proof.Proof.Spec
import proofs.«176690_j1778116460958_1_alg».proof.Proof.LibPlainDot
import Idealize.ShloMosaic.Lib.Pipeline.Value
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

-- The TensorCore's buffer contents when the region is entered: a parameter, as in the generated frame.
variable (V : (c : Dev nD) → (b : Ref sig .tc) → Buf (Elt Ideal) ((c : Thread nD τ).loc b))

/-- The block's value at row p, channel d. -/
private theorem outProj_pay_apply (a : Vec Ideal S1024x512 .f32) (w : Vec Ideal S512x512 .f32) (b g : Vec Ideal S1x512 .f32)
    (idn : Vec Ideal S1024x512 .f32) (be : Vec Ideal S1x512 .f32) (p : Fin 1024) (d : Fin 512) :
    k2_pay1 a w b g idn be (ix2 p d)
      = (idn (ix2 p d) + ((∑ k : Fin 512, a (ix2 p k) * w (ix2 k d)) + b (ix2 0 d)) * Ideal.logistic (g (ix2 0 d))) + be (ix2 0 d) := by
  have e1 : shapeCast S1024x512 idn shapeCasts_S1024x512_S1024x512 (ix2 p d) = idn (ix2 p d) :=
    congrFun (shapeCast_self idn _) _
  have e2 : matmul dot_S1024x512_S512x512_S1024x512_1_0_0_1_n_n none
        (truncf .bf16 (shapeCast S1024x512 a shapeCasts_S1024x512_S1024x512) bitsLt_bf16_f32 : FVec Ideal S1024x512 .bf16)
        (truncf .bf16 w bitsLt_bf16_f32 : FVec Ideal S512x512 .bf16) (constant S1024x512 .f32 0x00000000#32) (ix2 p d)
      = ∑ k : Fin 512, a (ix2 p k) * w (ix2 k d) := by
    refine (Idealize.ShloMosaic.PlainDot.matmul_zero_apply 1024 512 512 none _ _ (ix2 p d)).trans ?_
    rw [shapeCast_self]
    rfl
  have e3 : broadcastTo S1024x512 (shapeCast S1x512 b shapeCasts_S1x512_S1x512) broadcasts_S1x512_S1024x512 (ix2 p d) = b (ix2 0 d) := by
    rw [shapeCast_self]
    exact broadcastTo_1b_ab_apply b _ p d
  have e4 : broadcastTo S1024x512 (logistic (shapeCast S1x512 g shapeCasts_S1x512_S1x512) : FVec Ideal S1x512 .f32) broadcasts_S1x512_S1024x512 (ix2 p d)
      = Ideal.logistic (g (ix2 0 d)) := by
    rw [shapeCast_self]
    exact broadcastTo_1b_ab_apply _ _ p d
  have e5 : broadcastTo S1024x512 (shapeCast S1x512 be shapeCasts_S1x512_S1x512) broadcasts_S1x512_S1024x512 (ix2 p d) = be (ix2 0 d) := by
    rw [shapeCast_self]
    exact broadcastTo_1b_ab_apply be _ p d
  show (shapeCast S1024x512 idn shapeCasts_S1024x512_S1024x512 (ix2 p d)
      + (matmul dot_S1024x512_S512x512_S1024x512_1_0_0_1_n_n none
          (truncf .bf16 (shapeCast S1024x512 a shapeCasts_S1024x512_S1024x512) bitsLt_bf16_f32 : FVec Ideal S1024x512 .bf16)
          (truncf .bf16 w bitsLt_bf16_f32 : FVec Ideal S512x512 .bf16) (constant S1024x512 .f32 0x00000000#32) (ix2 p d)
        + broadcastTo S1024x512 (shapeCast S1x512 b shapeCasts_S1x512_S1x512) broadcasts_S1x512_S1024x512 (ix2 p d))
        * broadcastTo S1024x512 (logistic (shapeCast S1x512 g shapeCasts_S1x512_S1x512) : FVec Ideal S1x512 .f32) broadcasts_S1x512_S1024x512 (ix2 p d))
      + broadcastTo S1024x512 (shapeCast S1x512 be shapeCasts_S1x512_S1x512) broadcasts_S1x512_S1024x512 (ix2 p d) = _
  rw [e1, e2, e3, e4, e5]

private theorem outProj_hz : (![0, 0] : Fin 2 → Nat) = fun _ => 0 := funext fun a => by fin_cases a <;> rfl

/-- The index maps over the 32 points: the three row-blocked windows sit at block row t, column block 0; the four
    whole-array windows at block (0, 0). -/
private theorem outProj_idx : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row p of the attention output's block at point t is row 1024 t + p of the matrix. -/
private theorem outProj_blk0 (c : Dev nD) (t : Fin cfg2.N) (p : Fin 1024) (k : Fin 512) (r : Fin 32768)
    (hr : r.val = t.val * 1024 + p.val) :
    (iblk2 V c 0 t : Vec Ideal S1024x512 .f32) (ix2 p k) = V c main_v19 (ix2 r k) := by
  show V c main_v19 (((cfg2.win 0).blk t).view.emb (ix2 p k)) = V c main_v19 (ix2 r k)
  refine congrArg (V c main_v19) (funext fun a => Fin.ext ?_)
  obtain ⟨e0, e1, -⟩ := outProj_idx t
  match a with
  | ⟨0, _⟩ => show win2_0.index t (0 : Fin 2) * 1024 + 1 * p.val = r.val; omega
  | ⟨1, _⟩ => show win2_0.index t (1 : Fin 2) * 512 + 1 * k.val = k.val; omega

/-- The weights' block is the whole matrix at every point. -/
private theorem outProj_blk1 (c : Dev nD) (t : Fin cfg2.N) (k d : Fin 512) :
    (iblk2 V c 1 t : Vec Ideal S512x512 .f32) (ix2 k d) = V c main_arg3 (ix2 k d) := by
  show V c main_arg3 (((cfg2.win 1).blk t).view.emb (ix2 k d)) = V c main_arg3 (ix2 k d)
  refine congrArg (V c main_arg3) (funext fun a => Fin.ext ?_)
  obtain ⟨-, -, e0, e1, -⟩ := outProj_idx t
  match a with
  | ⟨0, _⟩ => show win2_1.index t (0 : Fin 2) * 512 + 1 * k.val = k.val; omega
  | ⟨1, _⟩ => show win2_1.index t (1 : Fin 2) * 512 + 1 * d.val = d.val; omega

/-- The bias row's block is the whole row at every point. -/
private theorem outProj_blk2 (c : Dev nD) (t : Fin cfg2.N) (d : Fin 512) :
    (iblk2 V c 2 t : Vec Ideal S1x512 .f32) (ix2 0 d) = V c main_v23 (ix2 0 d) := by
  show V c main_v23 (((cfg2.win 2).blk t).view.emb (ix2 0 d)) = V c main_v23 (ix2 0 d)
  refine congrArg (V c main_v23) (funext fun a => Fin.ext ?_)
  obtain ⟨-, -, -, -, e0, e1, -⟩ := outProj_idx t
  match a with
  | ⟨0, _⟩ => show win2_2.index t (0 : Fin 2) * 1 + 1 * 0 = 0; omega
  | ⟨1, _⟩ => show win2_2.index t (1 : Fin 2) * 512 + 1 * d.val = d.val; omega

/-- So is the gate row's … -/
private theorem outProj_blk3 (c : Dev nD) (t : Fin cfg2.N) (d : Fin 512) :
    (iblk2 V c 3 t : Vec Ideal S1x512 .f32) (ix2 0 d) = V c main_v21 (ix2 0 d) := by
  show V c main_v21 (((cfg2.win 3).blk t).view.emb (ix2 0 d)) = V c main_v21 (ix2 0 d)
  refine congrArg (V c main_v21) (funext fun a => Fin.ext ?_)
  obtain ⟨-, -, -, -, -, -, e0, e1, -⟩ := outProj_idx t
  match a with
  | ⟨0, _⟩ => show win2_3.index t (0 : Fin 2) * 1 + 1 * 0 = 0; omega
  | ⟨1, _⟩ => show win2_3.index t (1 : Fin 2) * 512 + 1 * d.val = d.val; omega

/-- … and the shift row's. -/
private theorem outProj_blk4 (c : Dev nD) (t : Fin cfg2.N) (d : Fin 512) :
    (iblk2 V c 4 t : Vec Ideal S1x512 .f32) (ix2 0 d) = V c main_v22 (ix2 0 d) := by
  show V c main_v22 (((cfg2.win 4).blk t).view.emb (ix2 0 d)) = V c main_v22 (ix2 0 d)
  refine congrArg (V c main_v22) (funext fun a => Fin.ext ?_)
  obtain ⟨-, -, -, -, -, -, -, -, e0, e1, -⟩ := outProj_idx t
  match a with
  | ⟨0, _⟩ => show win2_4.index t (0 : Fin 2) * 1 + 1 * 0 = 0; omega
  | ⟨1, _⟩ => show win2_4.index t (1 : Fin 2) * 512 + 1 * d.val = d.val; omega

/-- Row p of the input's block at point t is row 1024 t + p of the matrix. -/
private theorem outProj_blk5 (c : Dev nD) (t : Fin cfg2.N) (p : Fin 1024) (d : Fin 512) (r : Fin 32768)
    (hr : r.val = t.val * 1024 + p.val) :
    (iblk2 V c 5 t : Vec Ideal S1024x512 .f32) (ix2 p d) = V c main_v20 (ix2 r d) := by
  show V c main_v20 (((cfg2.win 5).blk t).view.emb (ix2 p d)) = V c main_v20 (ix2 r d)
  refine congrArg (V c main_v20) (funext fun a => Fin.ext ?_)
  obtain ⟨-, -, -, -, -, -, -, -, -, -, e0, e1, -⟩ := outProj_idx t
  match a with
  | ⟨0, _⟩ => show win2_5.index t (0 : Fin 2) * 1024 + 1 * p.val = r.val; omega
  | ⟨1, _⟩ => show win2_5.index t (1 : Fin 2) * 512 + 1 * d.val = d.val; omega

/-- Entry (p, d) of the result's block at point t sits at row 1024 t + p, channel d of the array. -/
private theorem outProj_emb6 (t : Fin cfg2.N) (p : Fin 1024) (d : Fin 512) (r : Fin 32768)
    (hr : r.val = t.val * 1024 + p.val) :
    (((cfg2.win 6).blk t).view.emb (ix2 p d) : S32768x512.Idx) = ix2 r d := by
  refine funext fun a => Fin.ext ?_
  obtain ⟨-, -, -, -, -, -, -, -, -, -, -, -, e0, e1⟩ := outProj_idx t
  match a with
  | ⟨0, _⟩ => show win2_6.index t (0 : Fin 2) * 1024 + 1 * p.val = r.val; omega
  | ⟨1, _⟩ => show win2_6.index t (1 : Fin 2) * 512 + 1 * d.val = d.val; omega

/-- What point t writes back is block t of the projection, gate, shift and residual of the whole arrays. -/
private theorem outProj_flushed (c : Dev nD) (t : Fin cfg2.N) :
    (dat2 V c).flushed 6 t = ((cfg2.win 6).blk t).view.read (Elt Ideal)
      (Cert.Spec.outFlat (V c main_v19) (V c main_arg3) (V c main_v23) (V c main_v21) (V c main_v22) (V c main_v20)) := by
  show (cfg2.win 6).cut (grid2.coords t) ((dat2 V c).after 6 t) = _
  rw [after2_6]
  unfold out2_6
  rw [View.canon_unit_zero outProj_hz]
  simp only [View.ld_unit_zero (S := S1024x512) outProj_hz, View.ld_unit_zero (S := S512x512) outProj_hz,
    View.ld_unit_zero (S := S1x512) outProj_hz]
  refine funext fun (j : S1024x512.Idx) => ?_
  obtain ⟨p, d, rfl⟩ : ∃ (p : Fin 1024) (d : Fin 512), j = ix2 p d := ⟨j 0, j 1, eq_ix2 j⟩
  have hN : cfg2.N = 32 := N_2
  have ht : t.val < 32 := hN ▸ t.isLt
  have hr : t.val * 1024 + p.val < 32768 := by have := p.isLt; omega
  show k2_pay1 (iblk2 V c 0 t) (iblk2 V c 1 t) (iblk2 V c 2 t) (iblk2 V c 3 t) (iblk2 V c 5 t) (iblk2 V c 4 t) (ix2 p d)
    = Cert.Spec.outFlat (V c main_v19) (V c main_arg3) (V c main_v23) (V c main_v21) (V c main_v22) (V c main_v20)
        (((cfg2.win 6).blk t).view.emb (ix2 p d))
  rw [outProj_emb6 t p d ⟨t.val * 1024 + p.val, hr⟩ rfl]
  refine (outProj_pay_apply (iblk2 V c 0 t) (iblk2 V c 1 t) (iblk2 V c 2 t) (iblk2 V c 3 t) (iblk2 V c 5 t) (iblk2 V c 4 t) p d).trans ?_
  rw [outProj_blk5 V c t p d ⟨t.val * 1024 + p.val, hr⟩ rfl, outProj_blk2 V c t d, outProj_blk3 V c t d, outProj_blk4 V c t d,
    Finset.sum_congr rfl fun k _ => by
      rw [outProj_blk0 V c t p k ⟨t.val * 1024 + p.val, hr⟩ rfl, outProj_blk1 V c t k d]]
  rfl

/-- An index of the array is in point t's block iff each coordinate is in the block's range on its axis. -/
private theorem outProj_mem_blk (t : Fin cfg2.N) (i : S32768x512.Idx) :
    i ∈ ((cfg2.win 6).blk t).view.set ↔ ∀ a : Fin 2, win2_6.index t a * S1024x512.size a ≤ (i a).val ∧ (i a).val < win2_6.index t a * S1024x512.size a + S1024x512.size a := by
  show i ∈ ((View.whole main_v24).slice (win2_6.rect t)).set ↔ _
  rw [View.set_slice_whole, Rect.mem_set_unit]
  exact Iff.rfl

/-- Row r lies in the block of point r / 1024: the 32 row blocks tile the array. -/
private theorem outProj_cover (i : S32768x512.Idx) :
    ∃ t : Fin cfg2.N, (cfg2.win 6).flush t = true ∧ i ∈ ((cfg2.win 6).blk t).view.set := by
  have hN : cfg2.N = 32 := N_2
  have hi0 : (i 0).val < 32768 := (i 0).isLt
  have hi1 : (i 1).val < 512 := (i 1).isLt
  refine ⟨⟨(i 0).val / 1024, by rw [hN]; omega⟩, flush2_6 _, ?_⟩
  rw [outProj_mem_blk]
  obtain ⟨-, -, -, -, -, -, -, -, -, -, -, -, e0, e1⟩ := outProj_idx ⟨(i 0).val / 1024, by rw [hN]; omega⟩
  intro a
  match a with
  | ⟨0, _⟩ =>
    show win2_6.index ⟨(i 0).val / 1024, _⟩ (0 : Fin 2) * 1024 ≤ (i 0).val ∧ (i 0).val < win2_6.index ⟨(i 0).val / 1024, _⟩ (0 : Fin 2) * 1024 + 1024
    rw [e0]; show (i 0).val / 1024 * 1024 ≤ (i 0).val ∧ (i 0).val < (i 0).val / 1024 * 1024 + 1024; omega
  | ⟨1, _⟩ =>
    show win2_6.index ⟨(i 0).val / 1024, _⟩ (1 : Fin 2) * 512 ≤ (i 1).val ∧ (i 1).val < win2_6.index ⟨(i 0).val / 1024, _⟩ (1 : Fin 2) * 512 + 512
    rw [e1]; omega

/-- The last region's result array, as a function of the arrays the region finds. -/
theorem region2 (c : Dev nD) :
    (dat2 V c).arrAt 6 cfg2.N = Cert.Spec.outFlat (V c main_v19) (V c main_arg3) (V c main_v23) (V c main_v21) (V c main_v22) (V c main_v20) :=
  (dat2 V c).arrAt_eq_of_cover 6 _ (fun t _ => outProj_flushed V c t) outProj_cover

end Cert.KernelIdeal.Hand

end
-- ==== Proof.KHost.lean ====
/-
  The kernel program's result buffer after the run, as `kernelOut` of the launch contents of the seven arguments.

  The generated frame names the buffers' contents at each boundary of @main as a fold: `W1` after the first host stretch,
  `W2` after region 0 (its result array at what the pipeline leaves, every other buffer as before), and so on to `W7`.
  Read backwards from the result buffer: a reshape of region 2's result; region 2's result is `outFlat` of the arrays it
  finds (Proof/Region2.lean), which the third host stretch made from region 1's result and the arguments; region 1's result is
  `attnSpec` of q, k, v (Proof/Region1.lean), which the second host stretch cut from region 0's result; and region 0's result
  is `projFlat` (Proof/Region0.lean) of the re-laid arguments.  No stretch and no region writes an argument.
-/
import proofs.«176690_j1778116460958_1_alg».proof.Proof.Gen.KernelIdeal.Frame
import proofs.«176690_j1778116460958_1_alg».proof.Proof.KTerm
import proofs.«176690_j1778116460958_1_alg».proof.Proof.Region0
import proofs.«176690_j1778116460958_1_alg».proof.Proof.Region1
import proofs.«176690_j1778116460958_1_alg».proof.Proof.Region2
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo

/-! ## The four host stretches, read at one buffer each, from any contents `X` -/

section Stretches

variable (X : Valuation τ sig (Elt Ideal))

/-- The last stretch re-lays region 2's result as [8, 64, 64, 512]. -/
private theorem ops3_v25 :
    StableHlo.after hostOps3 X (Proc.devRef .tc main_v25)
      = shapeCast S8x64x64x512 (X (Proc.devRef .tc main_v24) : FVec Ideal S32768x512 .f32) shapeCasts_S32768x512_S8x64x64x512 := by
  after_results; rfl

/-- The third stretch merges the heads of region 1's result and reads it as rows. -/
private theorem ops2_v19 :
    (StableHlo.after hostOps2 X (Proc.devRef .tc main_v19) : FVec Ideal S32768x512 .f32)
      = shapeCast S32768x512 (mergeHeads (F := Ideal) (X (Proc.devRef .tc main_v15))) shapeCasts_S8x64x64x512_S32768x512 := by
  unfold mergeHeads; after_results; rfl

private theorem ops2_v20 :
    StableHlo.after hostOps2 X (Proc.devRef .tc main_v20)
      = shapeCast S32768x512 (X (Proc.devRef .tc main_arg0) : FVec Ideal S8x64x64x512 .f32) shapeCasts_S8x64x64x512_S32768x512 := by
  after_results; rfl

private theorem ops2_v21 :
    StableHlo.after hostOps2 X (Proc.devRef .tc main_v21)
      = shapeCast S1x512 (X (Proc.devRef .tc main_arg5) : FVec Ideal S1x1x1x512 .f32) shapeCasts_S1x1x1x512_S1x512 := by
  after_results; rfl

private theorem ops2_v22 :
    StableHlo.after hostOps2 X (Proc.devRef .tc main_v22)
      = shapeCast S1x512 (X (Proc.devRef .tc main_arg6) : FVec Ideal S1x1x1x512 .f32) shapeCasts_S1x1x1x512_S1x512 := by
  after_results; rfl

private theorem ops2_v23 :
    StableHlo.after hostOps2 X (Proc.devRef .tc main_v23)
      = shapeCast S1x512 (X (Proc.devRef .tc main_arg4) : FVec Ideal S512 .f32) shapeCasts_S512_S1x512 := by
  after_results; rfl

/-- The third stretch writes `main_v16` … `main_v23` only. -/
private theorem ops2_keep (b : Ref sig .tc)
    (hb : b ∉ [main_v16, main_v17, main_v18, main_v19, main_v20, main_v21, main_v22, main_v23]) :
    StableHlo.after hostOps2 X (Proc.devRef .tc b) = X (Proc.devRef .tc b) := by
  refine StableHlo.after_of_writes_sub (W := [main_v16, main_v17, main_v18, main_v19, main_v20, main_v21, main_v22, main_v23]) _ _ ?_ hb
  simp only [hostOps2, List.Forall, reshape_writes, unary_writes, List.map_cons, List.map_nil, List.toFinset_cons,
    List.toFinset_nil, Finset.singleton_subset_iff, Finset.mem_insert, true_or, or_true, and_self]

/-- The second stretch cuts the queries, keys and values from region 0's result. -/
private theorem ops1_v8 :
    (StableHlo.after hostOps1 X (Proc.devRef .tc main_v8) : FVec Ideal S8x8x4096x64 .f32)
      = qOf (F := Ideal) (shapeCast S8x64x64x1536 (X (Proc.devRef .tc main_v2)) shapeCasts_S32768x1536_S8x64x64x1536) := by
  unfold qOf heads; after_results; rfl

private theorem ops1_v11 :
    (StableHlo.after hostOps1 X (Proc.devRef .tc main_v11) : FVec Ideal S8x8x4096x64 .f32)
      = kOf (F := Ideal) (shapeCast S8x64x64x1536 (X (Proc.devRef .tc main_v2)) shapeCasts_S32768x1536_S8x64x64x1536) := by
  unfold kOf heads; after_results; rfl

private theorem ops1_v14 :
    (StableHlo.after hostOps1 X (Proc.devRef .tc main_v14) : FVec Ideal S8x8x4096x64 .f32)
      = vOf (F := Ideal) (shapeCast S8x64x64x1536 (X (Proc.devRef .tc main_v2)) shapeCasts_S32768x1536_S8x64x64x1536) := by
  unfold vOf heads; after_results; rfl

/-- The second stretch writes `main_v3` … `main_v14` only. -/
private theorem ops1_keep (b : Ref sig .tc)
    (hb : b ∉ [main_v3, main_v4, main_v5, main_v6, main_v7, main_v8, main_v9, main_v10, main_v11, main_v12, main_v13, main_v14]) :
    StableHlo.after hostOps1 X (Proc.devRef .tc b) = X (Proc.devRef .tc b) := by
  refine StableHlo.after_of_writes_sub
    (W := [main_v3, main_v4, main_v5, main_v6, main_v7, main_v8, main_v9, main_v10, main_v11, main_v12, main_v13, main_v14]) _ _ ?_ hb
  simp only [hostOps1, List.Forall, reshape_writes, unary_writes, List.map_cons, List.map_nil, List.toFinset_cons,
    List.toFinset_nil, Finset.singleton_subset_iff, Finset.mem_insert, true_or, or_true, and_self]

/-- The first stretch reads the pixels as rows and the bias as one row. -/
private theorem ops0_v0 :
    StableHlo.after hostOps0 X (Proc.devRef .tc main_v0)
      = shapeCast S32768x512 (X (Proc.devRef .tc main_arg0) : FVec Ideal S8x64x64x512 .f32) shapeCasts_S8x64x64x512_S32768x512 := by
  after_results; rfl

private theorem ops0_v1 :
    StableHlo.after hostOps0 X (Proc.devRef .tc main_v1)
      = shapeCast S1x1536 (X (Proc.devRef .tc main_arg2) : FVec Ideal S1536 .f32) shapeCasts_S1536_S1x1536 := by
  after_results; rfl

/-- The first stretch writes `main_v0` and `main_v1` only. -/
private theorem ops0_keep (b : Ref sig .tc) (hb : b ∉ [main_v0, main_v1]) :
    StableHlo.after hostOps0 X (Proc.devRef .tc b) = X (Proc.devRef .tc b) := by
  refine StableHlo.after_of_writes_sub (W := [main_v0, main_v1]) _ _ ?_ hb
  simp only [hostOps0, List.Forall, reshape_writes, unary_writes, List.map_cons, List.map_nil, List.toFinset_cons,
    List.toFinset_nil, Finset.singleton_subset_iff, Finset.mem_insert, true_or, or_true, and_self]

end Stretches

section Run

variable (m : (ℓ : Loc nD τ sig) → Buf (Elt Ideal) ℓ) (ρ : Dev nD → PrngReg)

private theorem W2_keep (c : Dev nD) (b : Ref sig .tc) (h0 : b ∉ [main_v0, main_v1]) (hs0 : ∀ w, Pipeline.arrRef spec0 w ≠ b) :
    W2 m ρ c (Proc.devRef .tc b) = m ((c : Thread nD τ).loc b) :=
  (W2_of_ne m ρ c b hs0).trans (ops0_keep (W0 m ρ c) b h0)

private theorem W4_keep (c : Dev nD) (b : Ref sig .tc) (h0 : b ∉ [main_v0, main_v1]) (hs0 : ∀ w, Pipeline.arrRef spec0 w ≠ b)
    (h1 : b ∉ [main_v3, main_v4, main_v5, main_v6, main_v7, main_v8, main_v9, main_v10, main_v11, main_v12, main_v13, main_v14])
    (hs1 : ∀ w, Pipeline.arrRef spec1 w ≠ b) :
    W4 m ρ c (Proc.devRef .tc b) = m ((c : Thread nD τ).loc b) :=
  (W4_of_ne m ρ c b hs1).trans ((ops1_keep (W2 m ρ c) b h1).trans (W2_keep m ρ c b h0 hs0))

/-- Region 0 leaves the projected pixels, as rows. -/
private theorem W2_v2 (c : Dev nD) :
    (W2 m ρ c (Proc.devRef .tc main_v2) : FVec Ideal S32768x1536 .f32)
      = Cert.Spec.projFlat
          (shapeCast S32768x512 (m ((c : Thread nD τ).loc main_arg0)) shapeCasts_S8x64x64x512_S32768x512)
          (m ((c : Thread nD τ).loc main_arg1))
          (shapeCast S1x1536 (m ((c : Thread nD τ).loc main_arg2)) shapeCasts_S1536_S1x1536) := by
  have e0 : (V1 m ρ c main_v0 : FVec Ideal S32768x512 .f32)
      = shapeCast S32768x512 (m ((c : Thread nD τ).loc main_arg0)) shapeCasts_S8x64x64x512_S32768x512 := ops0_v0 (W0 m ρ c)
  have e1 : V1 m ρ c main_arg1 = m ((c : Thread nD τ).loc main_arg1) := ops0_keep (W0 m ρ c) main_arg1 (by decide)
  have e2 : (V1 m ρ c main_v1 : FVec Ideal S1x1536 .f32)
      = shapeCast S1x1536 (m ((c : Thread nD τ).loc main_arg2)) shapeCasts_S1536_S1x1536 := ops0_v1 (W0 m ρ c)
  refine ((W2_arr m ρ c 3).trans (region0 (V1 m ρ) c)).trans ?_
  rw [e0, e1, e2]

/-- The projected pixels as `projK` has them. -/
private theorem W2_v2_cast (c : Dev nD) :
    shapeCast S8x64x64x1536 (W2 m ρ c (Proc.devRef .tc main_v2) : FVec Ideal S32768x1536 .f32) shapeCasts_S32768x1536_S8x64x64x1536
      = projK (m ((c : Thread nD τ).loc main_arg0)) (m ((c : Thread nD τ).loc main_arg1)) (m ((c : Thread nD τ).loc main_arg2)) := by
  rw [W2_v2]; rfl

/-- Region 1 leaves the attention of the cut queries, keys and values. -/
private theorem W4_v15 (c : Dev nD) :
    (W4 m ρ c (Proc.devRef .tc main_v15) : FVec Ideal S8x8x4096x64 .f32)
      = Cert.Spec.attnSpec
          (qOf (projK (m ((c : Thread nD τ).loc main_arg0)) (m ((c : Thread nD τ).loc main_arg1)) (m ((c : Thread nD τ).loc main_arg2))))
          (kOf (projK (m ((c : Thread nD τ).loc main_arg0)) (m ((c : Thread nD τ).loc main_arg1)) (m ((c : Thread nD τ).loc main_arg2))))
          (vOf (projK (m ((c : Thread nD τ).loc main_arg0)) (m ((c : Thread nD τ).loc main_arg1)) (m ((c : Thread nD τ).loc main_arg2)))) := by
  have eq : (V3 m ρ c main_v8 : FVec Ideal S8x8x4096x64 .f32) = _ := (ops1_v8 (W2 m ρ c)).trans (congrArg qOf (W2_v2_cast m ρ c))
  have ek : (V3 m ρ c main_v11 : FVec Ideal S8x8x4096x64 .f32) = _ := (ops1_v11 (W2 m ρ c)).trans (congrArg kOf (W2_v2_cast m ρ c))
  have ev : (V3 m ρ c main_v14 : FVec Ideal S8x8x4096x64 .f32) = _ := (ops1_v14 (W2 m ρ c)).trans (congrArg vOf (W2_v2_cast m ρ c))
  refine ((W4_arr m ρ c 3).trans (region1 (V3 m ρ) c)).trans ?_
  rw [eq, ek, ev]

/-- Region 2 leaves the output projection of the merged attention, as rows. -/
private theorem W6_v24 (c : Dev nD) :
    (W6 m ρ c (Proc.devRef .tc main_v24) : FVec Ideal S32768x512 .f32)
      = Cert.Spec.outFlat
          (shapeCast S32768x512 (mergeHeads (Cert.Spec.attnSpec
            (qOf (projK (m ((c : Thread nD τ).loc main_arg0)) (m ((c : Thread nD τ).loc main_arg1)) (m ((c : Thread nD τ).loc main_arg2))))
            (kOf (projK (m ((c : Thread nD τ).loc main_arg0)) (m ((c : Thread nD τ).loc main_arg1)) (m ((c : Thread nD τ).loc main_arg2))))
            (vOf (projK (m ((c : Thread nD τ).loc main_arg0)) (m ((c : Thread nD τ).loc main_arg1)) (m ((c : Thread nD τ).loc main_arg2))))))
            shapeCasts_S8x64x64x512_S32768x512)
          (m ((c : Thread nD τ).loc main_arg3))
          (shapeCast S1x512 (m ((c : Thread nD τ).loc main_arg4)) shapeCasts_S512_S1x512)
          (shapeCast S1x512 (m ((c : Thread nD τ).loc main_arg5)) shapeCasts_S1x1x1x512_S1x512)
          (shapeCast S1x512 (m ((c : Thread nD τ).loc main_arg6)) shapeCasts_S1x1x1x512_S1x512)
          (shapeCast S32768x512 (m ((c : Thread nD τ).loc main_arg0)) shapeCasts_S8x64x64x512_S32768x512) := by
  have a0 := W4_keep m ρ c main_arg0 (by decide) (by decide) (by decide) (by decide)
  have a3 := W4_keep m ρ c main_arg3 (by decide) (by decide) (by decide) (by decide)
  have a4 := W4_keep m ρ c main_arg4 (by decide) (by decide) (by decide) (by decide)
  have a5 := W4_keep m ρ c main_arg5 (by decide) (by decide) (by decide) (by decide)
  have a6 := W4_keep m ρ c main_arg6 (by decide) (by decide) (by decide) (by decide)
  have e19 : (V5 m ρ c main_v19 : FVec Ideal S32768x512 .f32) = _ :=
    (ops2_v19 (W4 m ρ c)).trans (congrArg (fun a => shapeCast S32768x512 (mergeHeads a) shapeCasts_S8x64x64x512_S32768x512) (W4_v15 m ρ c))
  have e3 : V5 m ρ c main_arg3 = m ((c : Thread nD τ).loc main_arg3) := (ops2_keep (W4 m ρ c) main_arg3 (by decide)).trans a3
  have e23 : (V5 m ρ c main_v23 : FVec Ideal S1x512 .f32) = _ :=
    (ops2_v23 (W4 m ρ c)).trans (congrArg (fun a => shapeCast S1x512 a shapeCasts_S512_S1x512) a4)
  have e21 : (V5 m ρ c main_v21 : FVec Ideal S1x512 .f32) = _ :=
    (ops2_v21 (W4 m ρ c)).trans (congrArg (fun a => shapeCast S1x512 a shapeCasts_S1x1x1x512_S1x512) a5)
  have e22 : (V5 m ρ c main_v22 : FVec Ideal S1x512 .f32) = _ :=
    (ops2_v22 (W4 m ρ c)).trans (congrArg (fun a => shapeCast S1x512 a shapeCasts_S1x1x1x512_S1x512) a6)
  have e20 : (V5 m ρ c main_v20 : FVec Ideal S32768x512 .f32) = _ :=
    (ops2_v20 (W4 m ρ c)).trans (congrArg (fun a => shapeCast S32768x512 a shapeCasts_S8x64x64x512_S32768x512) a0)
  refine ((W6_arr m ρ c 6).trans (region2 (V5 m ρ) c)).trans ?_
  rw [e19, e3, e23, e21, e22, e20]

/-- The result buffer at the last boundary is the kernel's term of the arguments as launched. -/
theorem result_eq (c : Dev nD) :
    W7 m ρ c (Proc.devRef .tc main_v25)
      = kernelOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold kernelOut outK
  exact (ops3_v25 (W6 m ρ c)).trans
    (congrArg (fun a => shapeCast S8x64x64x512 a shapeCasts_S32768x512_S8x64x64x512) (W6_v24 m ρ c))

end Run

end Cert.KernelIdeal.Hand

end
-- ==== Proof.Layout.lean ====
/-
  The row form and the pixel form of stages 1 and 3 are one array.

  A pixel (n, h, w) of an [8, 64, 64, C] array is row (n * 64 + h) * 64 + w of the [32768, C] matrix with the same
  row-major order, so reading the matrix form of a stage at that row is reading its pixel form at the pixel; a bias or
  gate vector of length C is the one row of a [1, C] matrix.  In stage 3 the kernel adds (input + projection * gate) + shift
  and the reference input + (projection * gate + shift): addition of extended reals is associative.
-/
import proofs.«176690_j1778116460958_1_alg».proof.Proof.KTerm
import Idealize.ShloMosaic.Lib.Pipeline.Value
import Idealize.ShloMosaic.Lib.ValueLayout

noncomputable section

namespace Cert.KernelIdeal.Hand

open Idealize.ShloMosaic Idealize.ShloMosaic.ValueIdx Cert.KernelIdeal

/-- Row (n * 64 + h) * 64 + w of the matrix form of an [8, 64, 64, C] array is pixel (n, h, w). -/
private theorem rows_apply {C : Nat} (x : FVec Ideal ⟨4, ![8, 64, 64, C]⟩ .f32)
    (hc : (⟨4, ![8, 64, 64, C]⟩ : Shape).ShapeCasts ⟨2, ![32768, C]⟩) (n : Fin 8) (h w : Fin 64) (c : Fin C)
    (hr : (n.val * 64 + h.val) * 64 + w.val < 32768) :
    shapeCast ⟨2, ![32768, C]⟩ x hc (ix2 ⟨(n.val * 64 + h.val) * 64 + w.val, hr⟩ c) = x (ix4 n h w c) :=
  shapeCast_apply x hc _ _ (by
    rw [Shape.rowMajor_val_four, Shape.rowMajor_val_two]
    rfl)

/-- Pixel (n, h, w) of the pixel form of a [32768, C] matrix is its row (n * 64 + h) * 64 + w. -/
private theorem pixels_apply {C : Nat} (y : FVec Ideal ⟨2, ![32768, C]⟩ .f32)
    (hc : (⟨2, ![32768, C]⟩ : Shape).ShapeCasts ⟨4, ![8, 64, 64, C]⟩) (n : Fin 8) (h w : Fin 64) (c : Fin C)
    (hr : (n.val * 64 + h.val) * 64 + w.val < 32768) :
    shapeCast ⟨4, ![8, 64, 64, C]⟩ y hc (ix4 n h w c) = y (ix2 ⟨(n.val * 64 + h.val) * 64 + w.val, hr⟩ c) :=
  shapeCast_apply y hc _ _ (by
    rw [Shape.rowMajor_val_four, Shape.rowMajor_val_two]
    rfl)

/-- The one row of the [1, C] form of a [1, 1, 1, C] array is its last axis. -/
private theorem unitRow_apply {C : Nat} (g : FVec Ideal ⟨4, ![1, 1, 1, C]⟩ .f32)
    (hc : (⟨4, ![1, 1, 1, C]⟩ : Shape).ShapeCasts ⟨2, ![1, C]⟩) (c : Fin C) :
    shapeCast ⟨2, ![1, C]⟩ g hc (ix2 0 c) = g (ix4 0 0 0 c) :=
  shapeCast_apply g hc _ _ (by
    rw [Shape.rowMajor_val_four, Shape.rowMajor_val_two]
    rfl)

/-- Stage 1: the row form re-laid is the pixel form. -/
theorem projK_eq (x0 : FVec Ideal S8x64x64x512 .f32) (x1 : FVec Ideal S512x1536 .f32) (x2 : FVec Ideal S1536 .f32) :
    projK x0 x1 x2 = Cert.Spec.projSpec x0 x1 x2 := by
  funext i
  obtain ⟨n, h, w, d, rfl⟩ : ∃ (n : Fin 8) (h w : Fin 64) (d : Fin 1536), i = ix4 n h w d :=
    ⟨i 0, i 1, i 2, i 3, eq_ix4 i⟩
  have hr : (n.val * 64 + h.val) * 64 + w.val < 32768 := by
    have hn := n.isLt; have hh := h.isLt; have hw := w.isLt; omega
  unfold projK
  refine (pixels_apply _ _ n h w d hr).trans ?_
  unfold Cert.Spec.projFlat Cert.Spec.projSpec
  show (∑ k : Fin 512, shapeCast S32768x512 x0 _ (ix2 ⟨(n.val * 64 + h.val) * 64 + w.val, hr⟩ k) * x1 (ix2 k d))
      + shapeCast S1x1536 x2 _ (ix2 0 d)
    = (∑ k : Fin 512, x0 (ix4 n h w k) * x1 (ix2 k d)) + x2 (ix1 d)
  rw [shapeCast_a_1a_apply x2 _ 0 d]
  refine congrArg (· + x2 (ix1 d)) (Finset.sum_congr rfl fun k _ => ?_)
  rw [rows_apply x0 _ n h w k hr]

/-- Stage 3: the row form re-laid is the pixel form, the sum re-associated. -/
theorem outK_eq (a x0 : FVec Ideal S8x64x64x512 .f32) (x3 : FVec Ideal S512x512 .f32) (x4 : FVec Ideal S512 .f32)
    (x5 x6 : FVec Ideal S1x1x1x512 .f32) :
    outK a x0 x3 x4 x5 x6 = Cert.Spec.outSpec a x0 x3 x4 x5 x6 := by
  funext i
  obtain ⟨n, h, w, c, rfl⟩ : ∃ (n : Fin 8) (h w : Fin 64) (c : Fin 512), i = ix4 n h w c :=
    ⟨i 0, i 1, i 2, i 3, eq_ix4 i⟩
  have hr : (n.val * 64 + h.val) * 64 + w.val < 32768 := by
    have hn := n.isLt; have hh := h.isLt; have hw := w.isLt; omega
  unfold outK
  refine (pixels_apply _ _ n h w c hr).trans ?_
  unfold Cert.Spec.outFlat Cert.Spec.outSpec
  show (shapeCast S32768x512 x0 _ (ix2 ⟨(n.val * 64 + h.val) * 64 + w.val, hr⟩ c)
        + ((∑ k : Fin 512, shapeCast S32768x512 a _ (ix2 ⟨(n.val * 64 + h.val) * 64 + w.val, hr⟩ k) * x3 (ix2 k c))
            + shapeCast S1x512 x4 _ (ix2 0 c)) * Ideal.logistic (shapeCast S1x512 x5 _ (ix2 0 c)))
      + shapeCast S1x512 x6 _ (ix2 0 c)
    = x0 (ix4 n h w c) + (((∑ k : Fin 512, a (ix4 n h w k) * x3 (ix2 k c)) + x4 (ix1 c))
        * Ideal.logistic (x5 (ix4 0 0 0 c)) + x6 (ix4 0 0 0 c))
  rw [shapeCast_a_1a_apply x4 _ 0 c, unitRow_apply x5 _ c, unitRow_apply x6 _ c, rows_apply x0 _ n h w c hr,
    Finset.sum_congr rfl fun k _ => congrArg (· * x3 (ix2 k c)) (rows_apply a _ n h w k hr)]
  exact add_assoc _ _ _

end Cert.KernelIdeal.Hand

end
-- ==== Proof.RefProj.lean ====
/-
  The reference's first stage, its einsum of the pixels with the 512 x 1536 matrix plus the broadcast bias, read at an
  index: pixel (n, h, w), column d holds the pixel's channels times column d of the matrix plus bias d.
-/
import proofs.«176690_j1778116460958_1_alg».proof.Proof.Gen.ReferenceIdeal.Read
import proofs.«176690_j1778116460958_1_alg».proof.Proof.Spec
import Idealize.ShloMosaic.Lib.ValueLayout

noncomputable section

namespace Cert.ReferenceIdeal.Hand

open Cert.ReferenceIdeal Cert.ReferenceIdeal.Gen Cert.ReferenceIdeal.Read Idealize.ShloMosaic Idealize.ShloMosaic.TcCoe
open Idealize.ShloMosaic.ValueIdx

/-- The reference's projected pixels are the specification's. -/
theorem val_v3_eq (x0 : (⟨S8x64x64x512, .f32⟩ : BufTy).Contents (Elt Ideal)) (x1 : (⟨S512x1536, .f32⟩ : BufTy).Contents (Elt Ideal))
    (x2 : (⟨S1536, .f32⟩ : BufTy).Contents (Elt Ideal)) :
    val_main_v3 (F := Ideal) x0 x1 x2 = Cert.Spec.projSpec x0 x1 x2 := by
  funext i
  -- the einsum's operand indices are the pixel's channel k and the matrix's entry (k, d)
  have hl : ∀ k : Fin 512, lidx_main_v0 i k = ix4 (i 0) (i 1) (i 2) k := fun k =>
    funext fun a => Fin.ext (by match a with | ⟨0, _⟩ => rfl | ⟨1, _⟩ => rfl | ⟨2, _⟩ => rfl | ⟨3, _⟩ => rfl)
  have hr : ∀ k : Fin 512, ridx_main_v0 i k = ix2 k (i 3) := fun k =>
    funext fun a => Fin.ext (by match a with | ⟨0, _⟩ => rfl | ⟨1, _⟩ => rfl)
  -- the two broadcasts read the bias at the column d
  have hb : idx_main_v1 (idx_main_v2 i) = ix1 (i 3) :=
    funext fun a => Fin.ext (by match a with | ⟨0, _⟩ => rfl)
  rw [val_main_v3_apply, val_main_v0_apply, val_main_v2_apply, val_main_v1_apply]
  simp only [hl, hr, hb]
  rfl

end Cert.ReferenceIdeal.Hand

end
-- ==== Proof.RefAttn.lean ====
/-
  The reference's linear attention read at an index.  From its queries, keys and values (the stages `val_main_v12`,
  `val_main_v13`, `val_main_v14`) the reference takes the two softmaxes — a maximum reduced along the features
  (positions), a subtraction, an exponential, a sum reduced along the same axis, a quotient — and two batched einsums.
  At (n, e, l, d) that is the attention output of Proof/Spec.lean: each reduction over one axis is the fold, or the sum, over
  that axis's coordinates, and each einsum's one contracted axis is summed over its coordinate.
-/
import proofs.«176690_j1778116460958_1_alg».proof.Proof.Gen.ReferenceIdeal.Read
import proofs.«176690_j1778116460958_1_alg».proof.Proof.Spec
import Idealize.ShloMosaic.Lib.ValueLayout

noncomputable section

namespace Cert.ReferenceIdeal.Hand

open Cert.ReferenceIdeal Cert.ReferenceIdeal.Gen Cert.ReferenceIdeal.Read Idealize.ShloMosaic Idealize.ShloMosaic.TcCoe
open Idealize.ShloMosaic.ValueIdx

section Pieces

variable (x0 : (⟨S8x64x64x512, .f32⟩ : BufTy).Contents (Elt Ideal)) (x1 : (⟨S512x1536, .f32⟩ : BufTy).Contents (Elt Ideal))
  (x2 : (⟨S1536, .f32⟩ : BufTy).Contents (Elt Ideal))

/-! ## The queries' side: normalised along the features -/

/-- The maximum reduced along the features, then taken against minus infinity once more, is the row's maximum: the
    indices over (n, e, l) are (n, e, l, j) for the 64 features j. -/
theorem v17_eq (n e : Fin 8) (l : Fin 4096) :
    val_main_v17 (F := Ideal) x0 x1 x2 (ix3 n e l) = Cert.Spec.rowMax (val_main_v12 (F := Ideal) x0 x1 x2) n e l := by
  rw [val_main_v17_apply, val_main_v16_apply, val_main_cst_0_apply]
  unfold val_main_v15
  generalize val_main_v12 (F := Ideal) x0 x1 x2 = q
  have hr := Host.reduce_eq_fold_single (FloatOps.maximumf (F := Ideal) (φ := .f32)) q (val_main_cst (F := Ideal))
    reducesTo_S8x8x4096x64_S8x8x4096_d3 (by decide) h_S_ (ix3 n e l)
  rw [hr]
  have hf : (q ∘ Shape.Reduces.lift (s := S8x8x4096x64) (t := S8x8x4096) (a := 3) (by decide) (ix3 n e l))
      = fun j : Fin 64 => q (ix4 n e l j) :=
    funext fun j => congrArg q (funext fun a => Fin.ext (by
      match a with | ⟨0, _⟩ => rfl | ⟨1, _⟩ => rfl | ⟨2, _⟩ => rfl | ⟨3, _⟩ => rfl))
  rw [hf]
  rfl

/-- The exponential of a query feature less its row's maximum: the maximum is broadcast back along the features. -/
theorem v21_eq (n e : Fin 8) (l : Fin 4096) (j : Fin 64) :
    val_main_v21 (F := Ideal) x0 x1 x2 (ix4 n e l j) = Cert.Spec.rowExp (val_main_v12 (F := Ideal) x0 x1 x2) n e l j := by
  have hi : idx_main_v18 (idx_main_v19 (ix4 n e l j)) = ix3 n e l :=
    funext fun a => Fin.ext (by match a with | ⟨0, _⟩ => rfl | ⟨1, _⟩ => rfl | ⟨2, _⟩ => rfl)
  rw [val_main_v21_apply, val_main_v20_apply, val_main_v19_apply, val_main_v18_apply, hi, v17_eq]
  rfl

/-- The quotient by the sum of the row's exponentials, the sum starting from zero. -/
theorem v25_eq (n e : Fin 8) (l : Fin 4096) (j : Fin 64) :
    val_main_v25 (F := Ideal) x0 x1 x2 (ix4 n e l j) = Cert.Spec.rowSoft (val_main_v12 (F := Ideal) x0 x1 x2) n e l j := by
  have hi : idx_main_v23 (idx_main_v24 (ix4 n e l j)) = ix3 n e l :=
    funext fun a => Fin.ext (by match a with | ⟨0, _⟩ => rfl | ⟨1, _⟩ => rfl | ⟨2, _⟩ => rfl)
  have hk : ∀ k : Fin 64, idx_main_v22 (ix3 n e l) k = ix4 n e l k := fun k =>
    funext fun a => Fin.ext (by match a with | ⟨0, _⟩ => rfl | ⟨1, _⟩ => rfl | ⟨2, _⟩ => rfl | ⟨3, _⟩ => rfl)
  rw [val_main_v25_apply, val_main_v24_apply, val_main_v23_apply, hi, val_main_v22_apply, v21_eq, val_main_cst_1_apply]
  simp only [hk, v21_eq]
  rw [Ideal.hostDivf_def, Ideal.ofBits_def, Ideal.ofBits_zero_f32, zero_add]
  rfl

/-! ## The keys' side: normalised along the positions -/

/-- The maximum reduced along the positions, then taken against minus infinity once more, is the column's maximum: the
    indices over (n, e, j) are (n, e, l, j) for the 4096 positions l. -/
theorem v28_eq (n e : Fin 8) (j : Fin 64) :
    val_main_v28 (F := Ideal) x0 x1 x2 (ix3 n e j) = Cert.Spec.colMax (val_main_v13 (F := Ideal) x0 x1 x2) n e j := by
  rw [val_main_v28_apply, val_main_v27_apply, val_main_cst_3_apply]
  unfold val_main_v26
  generalize val_main_v13 (F := Ideal) x0 x1 x2 = k
  have hr := Host.reduce_eq_fold_single (FloatOps.maximumf (F := Ideal) (φ := .f32)) k (val_main_cst_2 (F := Ideal))
    reducesTo_S8x8x4096x64_S8x8x64_d2 (by decide) h_S_ (ix3 n e j)
  rw [hr]
  have hf : (k ∘ Shape.Reduces.lift (s := S8x8x4096x64) (t := S8x8x64) (a := 2) (by decide) (ix3 n e j))
      = fun l : Fin 4096 => k (ix4 n e l j) :=
    funext fun l => congrArg k (funext fun a => Fin.ext (by
      match a with | ⟨0, _⟩ => rfl | ⟨1, _⟩ => rfl | ⟨2, _⟩ => rfl | ⟨3, _⟩ => rfl))
  rw [hf]
  rfl

/-- The exponential of a key feature less its column's maximum: the maximum is broadcast back along the positions. -/
theorem v32_eq (n e : Fin 8) (l : Fin 4096) (j : Fin 64) :
    val_main_v32 (F := Ideal) x0 x1 x2 (ix4 n e l j) = Cert.Spec.colExp (val_main_v13 (F := Ideal) x0 x1 x2) n e l j := by
  have hi : idx_main_v29 (idx_main_v30 (ix4 n e l j)) = ix3 n e j :=
    funext fun a => Fin.ext (by match a with | ⟨0, _⟩ => rfl | ⟨1, _⟩ => rfl | ⟨2, _⟩ => rfl)
  rw [val_main_v32_apply, val_main_v31_apply, val_main_v30_apply, val_main_v29_apply, hi, v28_eq]
  rfl

/-- The quotient by the sum of the column's exponentials, the sum starting from zero. -/
theorem v36_eq (n e : Fin 8) (l : Fin 4096) (j : Fin 64) :
    val_main_v36 (F := Ideal) x0 x1 x2 (ix4 n e l j) = Cert.Spec.colSoft (val_main_v13 (F := Ideal) x0 x1 x2) n e l j := by
  have hi : idx_main_v34 (idx_main_v35 (ix4 n e l j)) = ix3 n e j :=
    funext fun a => Fin.ext (by match a with | ⟨0, _⟩ => rfl | ⟨1, _⟩ => rfl | ⟨2, _⟩ => rfl)
  have hk : ∀ l' : Fin 4096, idx_main_v33 (ix3 n e j) l' = ix4 n e l' j := fun l' =>
    funext fun a => Fin.ext (by match a with | ⟨0, _⟩ => rfl | ⟨1, _⟩ => rfl | ⟨2, _⟩ => rfl | ⟨3, _⟩ => rfl)
  rw [val_main_v36_apply, val_main_v35_apply, val_main_v34_apply, hi, val_main_v33_apply, v32_eq, val_main_cst_4_apply]
  simp only [hk, v32_eq]
  rw [Ideal.hostDivf_def, Ideal.ofBits_def, Ideal.ofBits_zero_f32, zero_add]
  rfl

/-! ## The two einsums -/

/-- The context: the key weights against the values, the positions contracted. -/
theorem v37_eq (n e : Fin 8) (j d : Fin 64) :
    val_main_v37 (F := Ideal) x0 x1 x2 (ix4 n e j d)
      = Cert.Spec.context (val_main_v13 (F := Ideal) x0 x1 x2) (val_main_v14 (F := Ideal) x0 x1 x2) n e j d := by
  have hl : ∀ l : Fin 4096, lidx_main_v37 (ix4 n e j d) l = ix4 n e l j := fun l =>
    funext fun a => Fin.ext (by match a with | ⟨0, _⟩ => rfl | ⟨1, _⟩ => rfl | ⟨2, _⟩ => rfl | ⟨3, _⟩ => rfl)
  have hr : ∀ l : Fin 4096, ridx_main_v37 (ix4 n e j d) l = ix4 n e l d := fun l =>
    funext fun a => Fin.ext (by match a with | ⟨0, _⟩ => rfl | ⟨1, _⟩ => rfl | ⟨2, _⟩ => rfl | ⟨3, _⟩ => rfl)
  rw [val_main_v37_apply]
  simp only [hl, hr, v36_eq]
  rfl

end Pieces

/-- The reference's attention output is the specification's, of the reference's own queries, keys and values. -/
theorem val_v38_eq (x0 : (⟨S8x64x64x512, .f32⟩ : BufTy).Contents (Elt Ideal)) (x1 : (⟨S512x1536, .f32⟩ : BufTy).Contents (Elt Ideal))
    (x2 : (⟨S1536, .f32⟩ : BufTy).Contents (Elt Ideal)) :
    val_main_v38 (F := Ideal) x0 x1 x2
      = Cert.Spec.attnSpec (val_main_v12 (F := Ideal) x0 x1 x2) (val_main_v13 (F := Ideal) x0 x1 x2) (val_main_v14 (F := Ideal) x0 x1 x2) := by
  funext i
  obtain ⟨n, e, l, d, rfl⟩ : ∃ (n e : Fin 8) (l : Fin 4096) (d : Fin 64), i = ix4 n e l d := ⟨i 0, i 1, i 2, i 3, eq_ix4 i⟩
  have hl : ∀ j : Fin 64, lidx_main_v38 (ix4 n e l d) j = ix4 n e l j := fun j =>
    funext fun a => Fin.ext (by match a with | ⟨0, _⟩ => rfl | ⟨1, _⟩ => rfl | ⟨2, _⟩ => rfl | ⟨3, _⟩ => rfl)
  have hr : ∀ j : Fin 64, ridx_main_v38 (ix4 n e l d) j = ix4 n e j d := fun j =>
    funext fun a => Fin.ext (by match a with | ⟨0, _⟩ => rfl | ⟨1, _⟩ => rfl | ⟨2, _⟩ => rfl | ⟨3, _⟩ => rfl)
  rw [val_main_v38_apply]
  simp only [hl, hr, v25_eq, v37_eq]
  rfl

end Cert.ReferenceIdeal.Hand

end
-- ==== Proof.RefOut.lean ====
/-
  The reference's last stage read at an index: at pixel (n, h, w), channel c it holds
  input + ((attention output's channels times column c of the matrix + bias c) * gate c + shift c), where the reference
  spells the gate as 1 / (1 + exp (-gamma c)): the logistic function of gamma c.
-/
import proofs.«176690_j1778116460958_1_alg».proof.Proof.Gen.ReferenceIdeal.Read
import proofs.«176690_j1778116460958_1_alg».proof.Proof.Spec
import Idealize.ShloMosaic.Lib.ValueLayout

noncomputable section

namespace Cert.ReferenceIdeal.Hand

open Cert.ReferenceIdeal Cert.ReferenceIdeal.Gen Cert.ReferenceIdeal.Read Idealize.ShloMosaic Idealize.ShloMosaic.TcCoe
open Idealize.ShloMosaic.ValueIdx

/-- The reference's result is the specification's last stage, of the reference's own re-laid attention output. -/
theorem val_v56_eq (x0 : (⟨S8x64x64x512, .f32⟩ : BufTy).Contents (Elt Ideal)) (x1 : (⟨S512x1536, .f32⟩ : BufTy).Contents (Elt Ideal))
    (x2 : (⟨S1536, .f32⟩ : BufTy).Contents (Elt Ideal)) (x3 : (⟨S512x512, .f32⟩ : BufTy).Contents (Elt Ideal))
    (x4 : (⟨S512, .f32⟩ : BufTy).Contents (Elt Ideal)) (x5 x6 : (⟨S1x1x1x512, .f32⟩ : BufTy).Contents (Elt Ideal)) :
    val_main_v56 (F := Ideal) x0 x1 x2 x3 x4 x5 x6
      = Cert.Spec.outSpec (val_main_v41 (F := Ideal) x0 x1 x2) x0 x3 x4 x5 x6 := by
  funext i
  -- the einsum's operand indices are the pixel's channel k and the matrix's entry (k, c)
  have hl : ∀ k : Fin 512, lidx_main_v42 i k = ix4 (i 0) (i 1) (i 2) k := fun k =>
    funext fun a => Fin.ext (by match a with | ⟨0, _⟩ => rfl | ⟨1, _⟩ => rfl | ⟨2, _⟩ => rfl | ⟨3, _⟩ => rfl)
  have hr : ∀ k : Fin 512, ridx_main_v42 i k = ix2 k (i 3) := fun k =>
    funext fun a => Fin.ext (by match a with | ⟨0, _⟩ => rfl | ⟨1, _⟩ => rfl)
  -- the two broadcasts read the bias at the channel c; gate and shift are read at (0, 0, 0, c)
  have hb : idx_main_v43 (idx_main_v44 i) = ix1 (i 3) :=
    funext fun a => Fin.ext (by match a with | ⟨0, _⟩ => rfl)
  have hg : idx_main_v52 i = ix4 0 0 0 (i 3) :=
    funext fun a => Fin.ext (by match a with | ⟨0, _⟩ => rfl | ⟨1, _⟩ => rfl | ⟨2, _⟩ => rfl | ⟨3, _⟩ => rfl)
  have hs : idx_main_v54 i = ix4 0 0 0 (i 3) :=
    funext fun a => Fin.ext (by match a with | ⟨0, _⟩ => rfl | ⟨1, _⟩ => rfl | ⟨2, _⟩ => rfl | ⟨3, _⟩ => rfl)
  -- the word 0x3F800000 is the number one
  have one : Ideal.ofBits .f32 0x3F800000#32 = 1 := IdealRules.sign_bit.ideal_onePat .f32
  rw [val_main_v56_apply, val_main_v55_apply, val_main_v53_apply, val_main_v54_apply, val_main_v45_apply,
    val_main_v52_apply, val_main_v51_apply, val_main_v50_apply, val_main_v49_apply, val_main_v48_apply,
    val_main_v47_apply, val_main_v46_apply, val_main_cst_5_apply, val_main_cst_6_apply, val_main_v42_apply,
    val_main_v44_apply, val_main_v43_apply]
  generalize val_main_v41 (F := Ideal) x0 x1 x2 = A
  simp only [hl, hr, hb, hg, hs, Ideal.ofBits_def, one]
  -- 1 / (1 + exp (-gamma)) is the logistic function by definition
  rfl

end Cert.ReferenceIdeal.Hand

end
-- ==== Proof.Bridge.lean ====
/-
  The two programs compute one function of their arguments.

  Stage by stage both are the specification of Proof/Spec.lean: the kernel's regions in row form (Proof/Layout.lean puts
  them in pixel form), the reference's operations read at an index (Proof/RefProj.lean, RefAttn.lean, RefOut.lean).  Between the
  stages both programs re-lay the arrays by the same reshapes, transpose and slices, which are carried here as the
  functions `qOf`, `kOf`, `vOf`, `mergeHeads` and never opened.
-/
import proofs.«176690_j1778116460958_1_alg».proof.Proof.KTerm
import proofs.«176690_j1778116460958_1_alg».proof.Proof.Layout
import proofs.«176690_j1778116460958_1_alg».proof.Proof.RefProj
import proofs.«176690_j1778116460958_1_alg».proof.Proof.RefAttn
import proofs.«176690_j1778116460958_1_alg».proof.Proof.RefOut

noncomputable section

namespace Cert.Bridge

open Idealize.ShloMosaic Cert.ReferenceIdeal.Read Cert.ReferenceIdeal.Hand Cert.KernelIdeal.Hand

variable (x0 : FVec Ideal Cert.KernelIdeal.S8x64x64x512 .f32) (x1 : FVec Ideal Cert.KernelIdeal.S512x1536 .f32)
  (x2 : FVec Ideal Cert.KernelIdeal.S1536 .f32)

/-- The reference cuts its queries from its projected pixels as the kernel program does. -/
theorem v12_chain : val_main_v12 (F := Ideal) x0 x1 x2 = qOf (F := Ideal) (val_main_v3 (F := Ideal) x0 x1 x2) := by
  unfold val_main_v12 val_main_v7 val_main_v6 val_main_v5 val_main_v4 qOf heads
  rfl

/-- … its keys … -/
theorem v13_chain : val_main_v13 (F := Ideal) x0 x1 x2 = kOf (F := Ideal) (val_main_v3 (F := Ideal) x0 x1 x2) := by
  unfold val_main_v13 val_main_v9 val_main_v8 val_main_v5 val_main_v4 kOf heads
  rfl

/-- … and its values. -/
theorem v14_chain : val_main_v14 (F := Ideal) x0 x1 x2 = vOf (F := Ideal) (val_main_v3 (F := Ideal) x0 x1 x2) := by
  unfold val_main_v14 val_main_v11 val_main_v10 val_main_v5 val_main_v4 vOf heads
  rfl

/-- The reference re-lays its attention output as the kernel program does. -/
theorem v41_chain : val_main_v41 (F := Ideal) x0 x1 x2 = mergeHeads (F := Ideal) (val_main_v38 (F := Ideal) x0 x1 x2) := by
  unfold val_main_v41 val_main_v40 val_main_v39 mergeHeads
  rfl

/-- The kernel program's term of the arguments is the reference's. -/
theorem kernelOut_eq (x3 : FVec Ideal Cert.KernelIdeal.S512x512 .f32) (x4 : FVec Ideal Cert.KernelIdeal.S512 .f32)
    (x5 x6 : FVec Ideal Cert.KernelIdeal.S1x1x1x512 .f32) :
    kernelOut x0 x1 x2 x3 x4 x5 x6 = val_main_v56 (F := Ideal) x0 x1 x2 x3 x4 x5 x6 := by
  unfold kernelOut
  rw [outK_eq, projK_eq, val_v56_eq, v41_chain, val_v38_eq, v12_chain, v13_chain, v14_chain, val_v3_eq]

end Cert.Bridge

end
-- ==== Proof.lean ====
/-
  A gated linear-attention block over an [8, 64, 64, 512] image batch, as three pipelined kernels among host re-layings,
  against its jnp reference: equal as extended reals, entry by entry.

  Both programs compute, per pixel, a 512 -> 1536 projection with a bias; per (image, head), over 4096 positions and 64
  features, the query weights (exponentials of the features less their maximum, divided by their sum), the key weights (the
  same along the positions), the context  sum over positions of key weight * value  and the query weights applied to it;
  and per pixel a 512 -> 512 projection with a bias, scaled by 1 / (1 + exp (-gamma)), shifted by beta and added to the
  input.  The kernel feeds its matrix products through a narrower float format, which at the ideal values changes
  nothing; it tiles the pixels by 1024 rows and the attention by (image, head); it spells the gate as one operation
  where the reference spells the quotient; and it adds input, product and shift in another grouping.  Sums and maxima do
  not depend on the order, and addition of extended reals is associative: no finiteness of the inputs is used.

  Proof/Spec.lean states the three stages; Proof/Region0.lean, Region1Pay.lean, Region1.lean, Region2.lean read each kernel region's
  result array as its stage; Proof/KRun.lean and KHost.lean the kernel program's result buffer after the run as one term of
  the arguments; Proof/RefProj.lean, RefAttn.lean, RefOut.lean the reference's operations at an index; Proof/Layout.lean and
  Bridge.lean join the two.  The idealized kernel is the kernel's own text read at the ideal values (no rewrite was
  applied), so `preserves` has nothing to state.
-/
import proofs.«176690_j1778116460958_1_alg».proof.Defs
import proofs.«176690_j1778116460958_1_alg».proof.Proof.Gen.Kernel
import proofs.«176690_j1778116460958_1_alg».proof.Proof.Gen.Kernel.Skeleton
import proofs.«176690_j1778116460958_1_alg».proof.Proof.Gen.Kernel.Launch
import proofs.«176690_j1778116460958_1_alg».proof.Proof.Gen.Kernel.Points
import proofs.«176690_j1778116460958_1_alg».proof.Proof.Gen.Kernel.Frame
import proofs.«176690_j1778116460958_1_alg».proof.Proof.Gen.KernelIdeal
import proofs.«176690_j1778116460958_1_alg».proof.Proof.Gen.KernelIdeal.Skeleton
import proofs.«176690_j1778116460958_1_alg».proof.Proof.Gen.KernelIdeal.Launch
import proofs.«176690_j1778116460958_1_alg».proof.Proof.Gen.KernelIdeal.Points
import proofs.«176690_j1778116460958_1_alg».proof.Proof.Gen.KernelIdeal.Frame
import proofs.«176690_j1778116460958_1_alg».proof.Proof.Gen.ReferenceIdeal
import proofs.«176690_j1778116460958_1_alg».proof.Proof.Gen.Pre_finite_inputs
import proofs.«176690_j1778116460958_1_alg».proof.Proof.Gen.ReferenceIdeal.Run
import proofs.«176690_j1778116460958_1_alg».proof.Proof.Gen.ReferenceIdeal.Read
import proofs.«176690_j1778116460958_1_alg».proof.Proof.KRun
import proofs.«176690_j1778116460958_1_alg».proof.Proof.KHost
import proofs.«176690_j1778116460958_1_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories that agree on the seven arguments both programs end with the result at one function of them. -/
theorem algebraic : Cert.algebraic_KernelIdeal_ReferenceIdeal := by
  intro m ρ m' ρ' _ hagree
  refine ⟨fun c => Cert.KernelIdeal.Hand.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.result_eq m ρ c), (h c).2⟩) (Cert.KernelIdeal.Gen.run_main m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v56_eq, e0, e1, e2, e3, e4, e5, e6]
    exact (Cert.Bridge.kernelOut_eq _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
